-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_e" .f32 0x355FB619#32 ((1 / 1199919 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000x3 : Shape := ⟨3, ![16, 100000, 3]⟩
abbrev S1199919x2 : Shape := ⟨2, ![1199919, 2]⟩
abbrev S_ : Shape := ⟨0, ![]⟩

class Facts : Prop where
  bcast_S_S16x100000x3 : S_.BroadcastsInDim S16x100000x3 (![] : Fin 0 → Fin S16x100000x3.rank)
  reducesTo_S16x100000x3_S_d0_1_2 : S16x100000x3.ReducesTo [0, 1, 2] S_
  h_S_ : 0 < S_.numel
  bcast_S_S1199919x2 : S_.BroadcastsInDim S1199919x2 (![] : Fin 0 → Fin S1199919x2.rank)
  reducesTo_S1199919x2_S_d0_1 : S1199919x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x100000x3 .f32) (main_arg1 : FVec F S16x100000x3 .f32) (main_arg2 : IVec S1199919x2 32) : IVec S_ 1 :=
  let main_v0 : FVec F S16x100000x3 .f32 := Host.absf main_arg0
  let main_cst : FVec F S_ .f32 := constant S_ .f32 0x7F800000#32
  let main_v1 : FVec F S16x100000x3 .f32 := broadcastInDim S16x100000x3 ![] bcast_S_S16x100000x3 main_cst
  let main_v2 : IVec S16x100000x3 1 := cmpf .olt main_v0 main_v1
  let main_c : IVec S_ 1 := constantI S_ 1 1#1
  let main_v3 : IVec S_ 1 := (fun x v => Host.reduce IntOp.andi x v reducesTo_S16x100000x3_S_d0_1_2 h_S_) main_v2 main_c
  let main_v4 : FVec F S16x100000x3 .f32 := Host.absf main_arg1
  let main_cst_0 : FVec F S_ .f32 := constant S_ .f32 0x7F800000#32
  let main_v5 : FVec F S16x100000x3 .f32 := broadcastInDim S16x100000x3 ![] bcast_S_S16x100000x3 main_cst_0
  let main_v6 : IVec S16x100000x3 1 := cmpf .olt main_v4 main_v5
  let main_c_1 : IVec S_ 1 := constantI S_ 1 1#1
  let main_v7 : IVec S_ 1 := (fun x v => Host.reduce IntOp.andi x v reducesTo_S16x100000x3_S_d0_1_2 h_S_) main_v6 main_c_1
  let main_v8 : IVec S_ 1 := andi main_v3 main_v7
  let main_c_2 : IVec S_ 32 := constantI S_ 32 0#32
  let main_v9 : IVec S1199919x2 32 := broadcastInDim S1199919x2 ![] bcast_S_S1199919x2 main_c_2
  let main_v10 : IVec S1199919x2 1 := cmpi .sge main_arg2 main_v9
  let main_c_3 : IVec S_ 1 := constantI S_ 1 1#1
  let main_v11 : IVec S_ 1 := (fun x v => Host.reduce IntOp.andi x v reducesTo_S1199919x2_S_d0_1 h_S_) main_v10 main_c_3
  let main_v12 : IVec S_ 1 := andi main_v8 main_v11
  let main_c_4 : IVec S_ 32 := constantI S_ 32 100000#32
  let main_v13 : IVec S1199919x2 32 := broadcastInDim S1199919x2 ![] bcast_S_S1199919x2 main_c_4
  let main_v14 : IVec S1199919x2 1 := cmpi .slt main_arg2 main_v13
  let main_c_5 : IVec S_ 1 := constantI S_ 1 1#1
  let main_v15 : IVec S_ 1 := (fun x v => Host.reduce IntOp.andi x v reducesTo_S1199919x2_S_d0_1 h_S_) main_v14 main_c_5
  fn_part1 (F := F) main_v12 main_v15
-- ==== Kernel.lean ====
abbrev S16x100000x3 : Shape := ⟨3, ![16, 100000, 3]⟩
abbrev S1199919x2 : Shape := ⟨2, ![1199919, 2]⟩
abbrev S_ : Shape := ⟨0, ![]⟩
abbrev S1203200x2 : Shape := ⟨2, ![1203200, 2]⟩
abbrev S1203200x1 : Shape := ⟨2, ![1203200, 1]⟩
abbrev S1203200 : Shape := ⟨1, ![1203200]⟩
abbrev S3x16x100000 : Shape := ⟨3, ![3, 16, 100000]⟩
abbrev S1 : Shape := ⟨1, ![1]⟩
abbrev S1x1 : Shape := ⟨2, ![1, 1]⟩
abbrev S3x16x1203200 : Shape := ⟨3, ![3, 16, 1203200]⟩
abbrev S48x1203200 : Shape := ⟨2, ![48, 1203200]⟩
abbrev S16x16 : Shape := ⟨2, ![16, 16]⟩
abbrev S48x12800 : Shape := ⟨2, ![48, 12800]⟩
abbrev S8x16 : Shape := ⟨2, ![8, 16]⟩
abbrev S16x12800 : Shape := ⟨2, ![16, 12800]⟩
abbrev S16 : Shape := ⟨1, ![16]⟩
abbrev S1x16 : Shape := ⟨2, ![1, 16]⟩

abbrev nBuf : Space → Nat
  | .hbm => 114
  | .vmem => 10
  | .smem => 0
  | _ => 0

abbrev bufTy : (tb : Table) → Fin (tcTables nBuf tb) → BufTy
  | .hbm, ⟨0, _⟩ => ⟨S16x100000x3, .f32⟩
  | .hbm, ⟨1, _⟩ => ⟨S16x100000x3, .f32⟩
  | .hbm, ⟨2, _⟩ => ⟨S1199919x2, .i32⟩
  | .hbm, ⟨3, _⟩ => ⟨S_, .i32⟩
  | .hbm, ⟨4, _⟩ => ⟨S_, .i32⟩
  | .hbm, ⟨5, _⟩ => ⟨S1203200x2, .i32⟩
  | .hbm, ⟨6, _⟩ => ⟨S1203200x1, .i32⟩
  | .hbm, ⟨7, _⟩ => ⟨S1203200, .i32⟩
  | .hbm, ⟨8, _⟩ => ⟨S1203200x1, .i32⟩
  | .hbm, ⟨9, _⟩ => ⟨S1203200, .i32⟩
  | .hbm, ⟨10, _⟩ => ⟨S3x16x100000, .f32⟩
  | .hbm, ⟨11, _⟩ => ⟨S3x16x100000, .f32⟩
  | .hbm, ⟨12, _⟩ => ⟨S_, .i32⟩
  | .hbm, ⟨13, _⟩ => ⟨S1203200, .i32⟩
  | .hbm, ⟨14, _⟩ => ⟨S1203200, .i1⟩
  | .hbm, ⟨15, _⟩ => ⟨S_, .i32⟩
  | .hbm, ⟨16, _⟩ => ⟨S1203200, .i32⟩
  | .hbm, ⟨17, _⟩ => ⟨S1203200, .i32⟩
  | .hbm, ⟨18, _⟩ => ⟨S1203200, .i32⟩
  | .hbm, ⟨19, _⟩ => ⟨S1203200x1, .i32⟩
  | .hbm, ⟨20, _⟩ => ⟨S1, .i32⟩
  | .hbm, ⟨21, _⟩ => ⟨S_, .i32⟩
  | .hbm, ⟨22, _⟩ => ⟨S1203200x1, .i32⟩
  | .hbm, ⟨23, _⟩ => ⟨S1203200x1, .i1⟩
  | .hbm, ⟨24, _⟩ => ⟨S1x1, .i32⟩
  | .hbm, ⟨25, _⟩ => ⟨S1203200x1, .i32⟩
  | .hbm, ⟨26, _⟩ => ⟨S1203200x1, .i1⟩
  | .hbm, ⟨27, _⟩ => ⟨S1203200x1, .i1⟩
  | .hbm, ⟨28, _⟩ => ⟨S_, .i1⟩
  | .hbm, ⟨29, _⟩ => ⟨S1203200, .i1⟩
  | .hbm, ⟨30, _⟩ => ⟨S3x16x1203200, .f32⟩
  | .hbm, ⟨31, _⟩ => ⟨S3x16x1203200, .i1⟩
  | .hbm, ⟨32, _⟩ => ⟨S_, .f32⟩
  | .hbm, ⟨33, _⟩ => ⟨S3x16x1203200, .f32⟩
  | .hbm, ⟨34, _⟩ => ⟨S3x16x1203200, .f32⟩
  | .hbm, ⟨35, _⟩ => ⟨S_, .i32⟩
  | .hbm, ⟨36, _⟩ => ⟨S1203200, .i32⟩
  | .hbm, ⟨37, _⟩ => ⟨S1203200, .i1⟩
  | .hbm, ⟨38, _⟩ => ⟨S_, .i32⟩
  | .hbm, ⟨39, _⟩ => ⟨S1203200, .i32⟩
  | .hbm, ⟨40, _⟩ => ⟨S1203200, .i32⟩
  | .hbm, ⟨41, _⟩ => ⟨S1203200, .i32⟩
  | .hbm, ⟨42, _⟩ => ⟨S1203200x1, .i32⟩
  | .hbm, ⟨43, _⟩ => ⟨S1, .i32⟩
  | .hbm, ⟨44, _⟩ => ⟨S_, .i32⟩
  | .hbm, ⟨45, _⟩ => ⟨S1203200x1, .i32⟩
  | .hbm, ⟨46, _⟩ => ⟨S1203200x1, .i1⟩
  | .hbm, ⟨47, _⟩ => ⟨S1x1, .i32⟩
  | .hbm, ⟨48, _⟩ => ⟨S1203200x1, .i32⟩
  | .hbm, ⟨49, _⟩ => ⟨S1203200x1, .i1⟩
  | .hbm, ⟨50, _⟩ => ⟨S1203200x1, .i1⟩
  | .hbm, ⟨51, _⟩ => ⟨S_, .i1⟩
  | .hbm, ⟨52, _⟩ => ⟨S1203200, .i1⟩
  | .hbm, ⟨53, _⟩ => ⟨S3x16x1203200, .f32⟩
  | .hbm, ⟨54, _⟩ => ⟨S3x16x1203200, .i1⟩
  | .hbm, ⟨55, _⟩ => ⟨S_, .f32⟩
  | .hbm, ⟨56, _⟩ => ⟨S3x16x1203200, .f32⟩
  | .hbm, ⟨57, _⟩ => ⟨S3x16x1203200, .f32⟩
  | .hbm, ⟨58, _⟩ => ⟨S_, .i32⟩
  | .hbm, ⟨59, _⟩ => ⟨S1203200, .i32⟩
  | .hbm, ⟨60, _⟩ => ⟨S1203200, .i1⟩
  | .hbm, ⟨61, _⟩ => ⟨S_, .i32⟩
  | .hbm, ⟨62, _⟩ => ⟨S1203200, .i32⟩
  | .hbm, ⟨63, _⟩ => ⟨S1203200, .i32⟩
  | .hbm, ⟨64, _⟩ => ⟨S1203200, .i32⟩
  | .hbm, ⟨65, _⟩ => ⟨S1203200x1, .i32⟩
  | .hbm, ⟨66, _⟩ => ⟨S1, .i32⟩
  | .hbm, ⟨67, _⟩ => ⟨S_, .i32⟩
  | .hbm, ⟨68, _⟩ => ⟨S1203200x1, .i32⟩
  | .hbm, ⟨69, _⟩ => ⟨S1203200x1, .i1⟩
  | .hbm, ⟨70, _⟩ => ⟨S1x1, .i32⟩
  | .hbm, ⟨71, _⟩ => ⟨S1203200x1, .i32⟩
  | .hbm, ⟨72, _⟩ => ⟨S1203200x1, .i1⟩
  | .hbm, ⟨73, _⟩ => ⟨S1203200x1, .i1⟩
  | .hbm, ⟨74, _⟩ => ⟨S_, .i1⟩
  | .hbm, ⟨75, _⟩ => ⟨S1203200, .i1⟩
  | .hbm, ⟨76, _⟩ => ⟨S3x16x1203200, .f32⟩
  | .hbm, ⟨77, _⟩ => ⟨S3x16x1203200, .i1⟩
  | .hbm, ⟨78, _⟩ => ⟨S_, .f32⟩
  | .hbm, ⟨79, _⟩ => ⟨S3x16x1203200, .f32⟩
  | .hbm, ⟨80, _⟩ => ⟨S3x16x1203200, .f32⟩
  | .hbm, ⟨81, _⟩ => ⟨S_, .i32⟩
  | .hbm, ⟨82, _⟩ => ⟨S1203200, .i32⟩
  | .hbm, ⟨83, _⟩ => ⟨S1203200, .i1⟩
  | .hbm, ⟨84, _⟩ => ⟨S_, .i32⟩
  | .hbm, ⟨85, _⟩ => ⟨S1203200, .i32⟩
  | .hbm, ⟨86, _⟩ => ⟨S1203200, .i32⟩
  | .hbm, ⟨87, _⟩ => ⟨S1203200, .i32⟩
  | .hbm, ⟨88, _⟩ => ⟨S1203200x1, .i32⟩
  | .hbm, ⟨89, _⟩ => ⟨S1, .i32⟩
  | .hbm, ⟨90, _⟩ => ⟨S_, .i32⟩
  | .hbm, ⟨91, _⟩ => ⟨S1203200x1, .i32⟩
  | .hbm, ⟨92, _⟩ => ⟨S1203200x1, .i1⟩
  | .hbm, ⟨93, _⟩ => ⟨S1x1, .i32⟩
  | .hbm, ⟨94, _⟩ => ⟨S1203200x1, .i32⟩
  | .hbm, ⟨95, _⟩ => ⟨S1203200x1, .i1⟩
  | .hbm, ⟨96, _⟩ => ⟨S1203200x1, .i1⟩
  | .hbm, ⟨97, _⟩ => ⟨S_, .i1⟩
  | .hbm, ⟨98, _⟩ => ⟨S1203200, .i1⟩
  | .hbm, ⟨99, _⟩ => ⟨S3x16x1203200, .f32⟩
  | .hbm, ⟨100, _⟩ => ⟨S3x16x1203200, .i1⟩
  | .hbm, ⟨101, _⟩ => ⟨S_, .f32⟩
  | .hbm, ⟨102, _⟩ => ⟨S3x16x1203200, .f32⟩
  | .hbm, ⟨103, _⟩ => ⟨S3x16x1203200, .f32⟩
  | .hbm, ⟨104, _⟩ => ⟨S48x1203200, .f32⟩
  | .hbm, ⟨105, _⟩ => ⟨S48x1203200, .f32⟩
  | .hbm, ⟨106, _⟩ => ⟨S48x1203200, .f32⟩
  | .hbm, ⟨107, _⟩ => ⟨S48x1203200, .f32⟩
  | .hbm, ⟨108, _⟩ => ⟨S16x16, .f32⟩
  | .hbm, ⟨109, _⟩ => ⟨S1x16, .f32⟩
  | .hbm, ⟨110, _⟩ => ⟨S16, .f32⟩
  | .hbm, ⟨111, _⟩ => ⟨S1x16, .f32⟩
  | .hbm, ⟨112, _⟩ => ⟨S16, .f32⟩
  | .hbm, ⟨113, _⟩ => ⟨S16, .f32⟩
  | .local _ .vmem, ⟨0, _⟩ => ⟨S48x12800, .f32⟩
  | .local _ .vmem, ⟨1, _⟩ => ⟨S48x12800, .f32⟩
  | .local _ .vmem, ⟨2, _⟩ => ⟨S48x12800, .f32⟩
  | .local _ .vmem, ⟨3, _⟩ => ⟨S48x12800, .f32⟩
  | .local _ .vmem, ⟨4, _⟩ => ⟨S48x12800, .f32⟩
  | .local _ .vmem, ⟨5, _⟩ => ⟨S48x12800, .f32⟩
  | .local _ .vmem, ⟨6, _⟩ => ⟨S48x12800, .f32⟩
  | .local _ .vmem, ⟨7, _⟩ => ⟨S48x12800, .f32⟩
  | .local _ .vmem, ⟨8, _⟩ => ⟨S8x16, .f32⟩
  | .local _ .vmem, ⟨9, _⟩ => ⟨S8x16, .f32⟩
  | _, _ => ⟨S16x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v7 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_cst : Ref sig .tc := ⟨.hbm, 55, rfl⟩
abbrev main_call2_v15 : Ref sig .tc := ⟨.hbm, 56, rfl⟩
abbrev main_v8 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v9 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_call4_cst : Ref sig .tc := ⟨.hbm, 101, rfl⟩
abbrev main_call4_v15 : Ref sig .tc := ⟨.hbm, 102, rfl⟩
abbrev main_v10 : Ref sig .tc := ⟨.hbm, 103, rfl⟩
abbrev main_v11 : Ref sig .tc := ⟨.hbm, 104, rfl⟩
abbrev main_v12 : Ref sig .tc := ⟨.hbm, 105, rfl⟩
abbrev main_v13 : Ref sig .tc := ⟨.hbm, 106, rfl⟩
abbrev main_v14 : Ref sig .tc := ⟨.hbm, 107, rfl⟩
abbrev main_v15 : Ref sig .tc := ⟨.hbm, 108, rfl⟩
abbrev main_v16 : Ref sig .tc := ⟨.hbm, 109, rfl⟩
abbrev main_v17 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 47], ![false, false]⟩

def cc0_transform_0 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.muli arg0 c47_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.muli arg0 c47_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.muli arg0 c47_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.muli arg0 c47_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S48x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S48x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S48x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S1199919x2_S1203200x2_032810_000 : S1199919x2.Pads (![0, 0] : Fin 2 → Nat) ![3281, 0] ![0, 0] S1203200x2
  h_S_ : 0 < S_.numel
  slices_S1203200x2_S1203200x1_0_0 : S1203200x2.Slices ![0, 0] S1203200x1
  shapeCasts_S1203200x1_S1203200 : S1203200x1.ShapeCasts S1203200
  slices_S1203200x2_S1203200x1_0_1 : S1203200x2.Slices ![0, 1] S1203200x1
  transposes_S16x100000x3_S3x16x100000_2_0_1 : S16x100000x3.Transposes [2, 0, 1] S3x16x100000
  bcast_S_S1203200 : S_.BroadcastsInDim S1203200 (![] : Fin 0 → Fin S1203200.rank)
  bcast_S1203200_S1203200x1_0 : S1203200.BroadcastsInDim S1203200x1 (![0] : Fin 1 → Fin S1203200x1.rank)
  bcast_S_S1203200x1 : S_.BroadcastsInDim S1203200x1 (![] : Fin 0 → Fin S1203200x1.rank)
  bcast_S1_S1x1_1 : S1.BroadcastsInDim S1x1 (![1] : Fin 1 → Fin S1x1.rank)
  bcast_S1x1_S1203200x1_0_1 : S1x1.BroadcastsInDim S1203200x1 (![0, 1] : Fin 2 → Fin S1203200x1.rank)
  reducesTo_S1203200x1_S1203200_d1 : S1203200x1.ReducesTo [1] S1203200
  bcast_S1203200_S3x16x1203200_2 : S1203200.BroadcastsInDim S3x16x1203200 (![2] : Fin 1 → Fin S3x16x1203200.rank)
  bcast_S_S3x16x1203200 : S_.BroadcastsInDim S3x16x1203200 (![] : Fin 0 → Fin S3x16x1203200.rank)
  shapeCasts_S3x16x1203200_S48x1203200 : S3x16x1203200.ShapeCasts S48x1203200
  inb_S8x16_S8x16_0_0 : ∀ a, (![0, 0] : Fin 2 → Nat) a + S8x16.size a ≤ S8x16.size a
  h_S8x16 : 0 < S8x16.numel
  inb_S48x12800_S48x12800_0_0 : ∀ a, (![0, 0] : Fin 2 → Nat) a + S48x12800.size a ≤ S48x12800.size a
  h_S48x12800 : 0 < S48x12800.numel
  shapeCasts_S48x12800_S48x12800 : S48x12800.ShapeCasts S48x12800
  slices_S48x12800_o0_0_S16x12800 : S48x12800.Slices ![0, 0] S16x12800
  slices_S48x12800_o16_0_S16x12800 : S48x12800.Slices ![16, 0] S16x12800
  slices_S48x12800_o32_0_S16x12800 : S48x12800.Slices ![32, 0] S16x12800
  reduces_S16x12800_S16 : S16x12800.Reduces [1] S16
  inb_S8x16_S1x16_0_0 : ∀ a, (![0, 0] : Fin 2 → Nat) a + S1x16.size a ≤ S8x16.size a
  h_S1x16 : 0 < S1x16.numel
  shapeCasts_S1x16_S1x16 : S1x16.ShapeCasts S1x16
  shapeCasts_S16_S1x16 : S16.ShapeCasts S1x16
  slices_S16x16_S1x16_0_0 : S16x16.Slices ![0, 0] S1x16
  shapeCasts_S1x16_S16 : S1x16.ShapeCasts S16
  slices_S16x16_S1x16_8_0 : S16x16.Slices ![8, 0] S1x16
  gather_S3x16x100000_S1203200x1_S3x16x1203200_01_2_n_n_2_1_3161_wf : GatherDims.WF S3x16x100000 S1203200x1 S3x16x1203200 [0, 1] [2] [] [2] [] 1 ![3, 16, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x12800.size a ≤ S48x1203200.size a
  hwx0_0 : ∀ i : grid0.Coords, EltTy.bits .f32 = 32 ∨ (Rect.block (s := S48x1203200) S48x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x12800.size a ≤ S48x1203200.size a
  hwx0_1 : ∀ i : grid0.Coords, EltTy.bits .f32 = 32 ∨ (Rect.block (s := S48x1203200) S48x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S48x12800.size a ≤ S48x1203200.size a
  hwx0_2 : ∀ i : grid0.Coords, EltTy.bits .f32 = 32 ∨ (Rect.block (s := S48x1203200) S48x12800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S48x12800.size a ≤ S48x1203200.size a
  hwx0_3 : ∀ i : grid0.Coords, EltTy.bits .f32 = 32 ∨ (Rect.block (s := S48x1203200) S48x12800.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S16x16.size a
  hwx0_4 : ∀ i : grid0.Coords, EltTy.bits .f32 = 32 ∨ (Rect.block (s := S16x16) S8x16.size (cc0_transform_4 i) (hinb0_4 i)).WholeWords (EltTy.packing .f32)

variable [Facts₀]

def gather_S3x16x100000_S1203200x1_S3x16x1203200_01_2_n_n_2_1_3161 : GatherDims S3x16x100000 S1203200x1 S3x16x1203200 where
  offsetDims := [0, 1]
  collapsedSliceDims := [2]
  operandBatchingDims := []
  startIndicesBatchingDims := []
  startIndexMap := [2]
  indexVectorDim := 1
  sliceSizes := ![3, 16, 1]
  wf := gather_S3x16x100000_S1203200x1_S3x16x1203200_01_2_n_n_2_1_3161_wf

abbrev win0_0 : Pipeline.Window sig grid0 :=
  Pipeline.Window.ofSpec (Memref.whole main_v11) S48x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S48x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S48x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S48x12800.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x100000x3 : Shape := ⟨3, ![16, 100000, 3]⟩
abbrev S1199919x2 : Shape := ⟨2, ![1199919, 2]⟩
abbrev S1199919x1 : Shape := ⟨2, ![1199919, 1]⟩
abbrev S1199919 : Shape := ⟨1, ![1199919]⟩
abbrev S_ : Shape := ⟨0, ![]⟩
abbrev S16x1199919x3 : Shape := ⟨3, ![16, 1199919, 3]⟩
abbrev S16x1199919 : Shape := ⟨2, ![16, 1199919]⟩
abbrev S16 : Shape := ⟨1, ![16]⟩

abbrev nBuf : Space → Nat
  | .hbm => 58
  | .vmem => 0
  | .smem => 0
  | _ => 0

abbrev bufTy : (tb : Table) → Fin (tcTables nBuf tb) → BufTy
  | .hbm, ⟨0, _⟩ => ⟨S16x100000x3, .f32⟩
  | .hbm, ⟨1, _⟩ => ⟨S16x100000x3, .f32⟩
  | .hbm, ⟨2, _⟩ => ⟨S1199919x2, .i32⟩
  | .hbm, ⟨3, _⟩ => ⟨S1199919x1, .i32⟩
  | .hbm, ⟨4, _⟩ => ⟨S1199919, .i32⟩
  | .hbm, ⟨5, _⟩ => ⟨S1199919x1, .i32⟩
  | .hbm, ⟨6, _⟩ => ⟨S1199919, .i32⟩
  | .hbm, ⟨7, _⟩ => ⟨S_, .i32⟩
  | .hbm, ⟨8, _⟩ => ⟨S1199919, .i32⟩
  | .hbm, ⟨9, _⟩ => ⟨S1199919, .i1⟩
  | .hbm, ⟨10, _⟩ => ⟨S_, .i32⟩
  | .hbm, ⟨11, _⟩ => ⟨S1199919, .i32⟩
  | .hbm, ⟨12, _⟩ => ⟨S1199919, .i32⟩
  | .hbm, ⟨13, _⟩ => ⟨S1199919, .i32⟩
  | .hbm, ⟨14, _⟩ => ⟨S1199919x1, .i32⟩
  | .hbm, ⟨15, _⟩ => ⟨S16x1199919x3, .f32⟩
  | .hbm, ⟨16, _⟩ => ⟨S_, .i32⟩
  | .hbm, ⟨17, _⟩ => ⟨S1199919, .i32⟩
  | .hbm, ⟨18, _⟩ => ⟨S1199919, .i1⟩
  | .hbm, ⟨19, _⟩ => ⟨S_, .i32⟩
  | .hbm, ⟨20, _⟩ => ⟨S1199919, .i32⟩
  | .hbm, ⟨21, _⟩ => ⟨S1199919, .i32⟩
  | .hbm, ⟨22, _⟩ => ⟨S1199919, .i32⟩
  | .hbm, ⟨23, _⟩ => ⟨S1199919x1, .i32⟩
  | .hbm, ⟨24, _⟩ => ⟨S16x1199919x3, .f32⟩
  | .hbm, ⟨25, _⟩ => ⟨S16x1199919x3, .f32⟩
  | .hbm, ⟨26, _⟩ => ⟨S_, .i32⟩
  | .hbm, ⟨27, _⟩ => ⟨S1199919, .i32⟩
  | .hbm, ⟨28, _⟩ => ⟨S1199919, .i1⟩
  | .hbm, ⟨29, _⟩ => ⟨S_, .i32⟩
  | .hbm, ⟨30, _⟩ => ⟨S1199919, .i32⟩
  | .hbm, ⟨31, _⟩ => ⟨S1199919, .i32⟩
  | .hbm, ⟨32, _⟩ => ⟨S1199919, .i32⟩
  | .hbm, ⟨33, _⟩ => ⟨S1199919x1, .i32⟩
  | .hbm, ⟨34, _⟩ => ⟨S16x1199919x3, .f32⟩
  | .hbm, ⟨35, _⟩ => ⟨S_, .i32⟩
  | .hbm, ⟨36, _⟩ => ⟨S1199919, .i32⟩
  | .hbm, ⟨37, _⟩ => ⟨S1199919, .i1⟩
  | .hbm, ⟨38, _⟩ => ⟨S_, .i32⟩
  | .hbm, ⟨39, _⟩ => ⟨S1199919, .i32⟩
  | .hbm, ⟨40, _⟩ => ⟨S1199919, .i32⟩
  | .hbm, ⟨41, _⟩ => ⟨S1199919, .i32⟩
  | .hbm, ⟨42, _⟩ => ⟨S1199919x1, .i32⟩
  | .hbm, ⟨43, _⟩ => ⟨S16x1199919x3, .f32⟩
  | .hbm, ⟨44, _⟩ => ⟨S16x1199919x3, .f32⟩
  | .hbm, ⟨45, _⟩ => ⟨S16x1199919x3, .f32⟩
  | .hbm, ⟨46, _⟩ => ⟨S_, .f32⟩
  | .hbm, ⟨47, _⟩ => ⟨S16x1199919, .f32⟩
  | .hbm, ⟨48, _⟩ => ⟨S16x1199919x3, .f32⟩
  | .hbm, ⟨49, _⟩ => ⟨S_, .f32⟩
  | .hbm, ⟨50, _⟩ => ⟨S16x1199919, .f32⟩
  | .hbm, ⟨51, _⟩ => ⟨S16x1199919, .f32⟩
  | .hbm, ⟨52, _⟩ => ⟨S16x1199919, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S1199919x2_S1199919x1_0_0 : S1199919x2.Slices ![0, 0] S1199919x1
  shapeCasts_S1199919x1_S1199919 : S1199919x1.ShapeCasts S1199919
  slices_S1199919x2_S1199919x1_0_1 : S1199919x2.Slices ![0, 1] S1199919x1
  bcast_S_S1199919 : S_.BroadcastsInDim S1199919 (![] : Fin 0 → Fin S1199919.rank)
  bcast_S1199919_S1199919x1_0 : S1199919.BroadcastsInDim S1199919x1 (![0] : Fin 1 → Fin S1199919x1.rank)
  reducesTo_S16x1199919x3_S16x1199919_d2 : S16x1199919x3.ReducesTo [2] S16x1199919
  h_S_ : 0 < S_.numel
  reducesTo_S16x1199919_S16_d1 : S16x1199919.ReducesTo [1] S16
  bcast_S_S16 : S_.BroadcastsInDim S16 (![] : Fin 0 → Fin S16.rank)
  gather_S16x100000x3_S1199919x1_S16x1199919x3_02_1_n_n_1_1_1613_wf : GatherDims.WF S16x100000x3 S1199919x1 S16x1199919x3 [0, 2] [1] [] [1] [] 1 ![16, 1, 3]

variable [Facts₀]

def gather_S16x100000x3_S1199919x1_S16x1199919x3_02_1_n_n_1_1_1613 : GatherDims S16x100000x3 S1199919x1 S16x1199919x3 where
  offsetDims := [0, 2]
  collapsedSliceDims := [1]
  operandBatchingDims := []
  startIndicesBatchingDims := []
  startIndexMap := [1]
  indexVectorDim := 1
  sliceSizes := ![16, 1, 3]
  wf := gather_S16x100000x3_S1199919x1_S16x1199919x3_02_1_n_n_1_1_1613_wf

class Facts : Prop extends Facts₀ where

variable [Facts]
-- ==== Proof.KernelBody.lean ====
/-
  What the kernel body leaves in row 0 of its output block, case by case.

  The body adds to row 0 of the (8 × 16) output block the lane sums of the block of 12800 edges:
  for batch element q, the sum over the lanes l of | Σ_c (xk − xj)²(16c + q, l) − Σ_c (dxk − dxj)²(16c + q, l) |.
  At the first block of a half of the grid the output block is zeroed first, so row 0 becomes 0 + the lane sums;
  at a middle block row 0 becomes the previous row 0 plus the lane sums; at the last block of a half
  that sum is then scaled by the folded reciprocal of the number of edges.
-/
import proofs.«415139_j7052336300349_3_alg».proof.Proof.Gen.KernelIdeal.Frame
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Tactic

noncomputable section

namespace Cert.KernelIdeal.BodyValue

open Idealize.ShloMosaic Idealize.ShloMosaic.TcCoe Idealize.SL.Sem Idealize.ShloMosaic.Tactic Idealize.ShloMosaic.ValueIdx
open Cert.KernelIdeal Cert.KernelIdeal.Gen

variable {F : FTy → Type} [FloatOps F] [Named F]

theorem hz : (![0, 0] : Fin 2 → Nat) = fun _ => 0 := funext fun a => by fin_cases a <;> rfl

/-- Row 0 of the output block, as a rectangle of it. -/
abbrev rowRect : Rect S8x16 := Rect.unit (s := S8x16) ![0, 0] ![1, 16] inb_S8x16_S1x16_0_0

/-- Entry q of the row is entry (0, q) of the block. -/
theorem emb_row (q : Fin 16) : rowRect.emb (ix2 (0 : Fin 1) q) = ix2 (0 : Fin 8) q := by
  funext a
  apply Fin.ext
  match a with
  | ⟨0, _⟩ => rfl
  | ⟨1, _⟩ => show 0 + 1 * q.val = q.val; omega

/-- MIDDLE BLOCK: row 0 after the body is the accumulate payload of the four input blocks and the row read before. -/
theorem out_B_row (c : Dev nD) (i : grid0.Coords) (arg2 : Memref sig .tc .vmem S48x12800 .f32) (harg2 : arg2.IsWhole) (arg3 : Memref sig .tc .vmem S48x12800 .f32) (harg3 : arg3.IsWhole) (arg4 : Memref sig .tc .vmem S48x12800 .f32) (harg4 : arg4.IsWhole) (arg5 : Memref sig .tc .vmem S48x12800 .f32) (harg5 : arg5.IsWhole) (arg6 : Memref sig .tc .vmem S8x16 .f32) (harg6 : arg6.IsWhole) (hc0 : ¬cond0_0 i) (hc1 : ¬cond0_1 i)
    (x0 x1 x2 x3 : Vec F S48x12800 .f32) (xo4 : Vec F S8x16 .f32) (q : Fin 16) :
    out0_B_4 c i arg2 harg2 arg3 harg3 arg4 harg4 arg5 harg5 arg6 harg6 hc0 hc1 x0 x1 x2 x3 xo4 (ix2 (0 : Fin 8) q)
      = k0_pay2 x1 x0 x3 x2 (View.ld xo4 rowRect) (ix2 (0 : Fin 1) q) := by
  unfold out0_B_4 kernelRun0_B
  dsimp only
  sl_unfold_words
  rw [← emb_row q]
  refine (View.read_writes_cons_emb _ _ _ _ _ _).trans ?_
  simp only [View.readAt_eq_ld, harg2.read_unread, harg3.read_unread, harg4.read_unread, harg5.read_unread,
    harg6.read_unread, View.ld_unit_zero (S := S48x12800) hz]

/-- LAST BLOCK of a half: row 0 after the body is the scale payload of the accumulate payload. -/
theorem out_C_row (c : Dev nD) (i : grid0.Coords) (arg2 : Memref sig .tc .vmem S48x12800 .f32) (harg2 : arg2.IsWhole) (arg3 : Memref sig .tc .vmem S48x12800 .f32) (harg3 : arg3.IsWhole) (arg4 : Memref sig .tc .vmem S48x12800 .f32) (harg4 : arg4.IsWhole) (arg5 : Memref sig .tc .vmem S48x12800 .f32) (harg5 : arg5.IsWhole) (arg6 : Memref sig .tc .vmem S8x16 .f32) (harg6 : arg6.IsWhole) (hc0 : ¬cond0_0 i) (hc1 : cond0_1 i)
    (x0 x1 x2 x3 : Vec F S48x12800 .f32) (xo4 : Vec F S8x16 .f32) (q : Fin 16) :
    out0_C_4 c i arg2 harg2 arg3 harg3 arg4 harg4 arg5 harg5 arg6 harg6 hc0 hc1 x0 x1 x2 x3 xo4 (ix2 (0 : Fin 8) q)
      = k0_pay3 (k0_pay2 x1 x0 x3 x2 (View.ld xo4 rowRect)) (ix2 (0 : Fin 1) q) := by
  unfold out0_C_4 kernelRun0_C
  dsimp only
  sl_unfold_words
  rw [← emb_row q]
  refine (View.read_writes_cons_emb _ _ _ _ _ _).trans ?_
  simp only [View.readCov_cons_toLoadRect, View.readAt_eq_ld, harg2.read_unread, harg3.read_unread, harg4.read_unread,
    harg5.read_unread, harg6.read_unread, View.ld_unit_zero (S := S48x12800) hz]

/-- FIRST BLOCK of a half: row 0 after the body is the accumulate payload over the zeroed block's row. -/
theorem out_A_row (c : Dev nD) (i : grid0.Coords) (arg2 : Memref sig .tc .vmem S48x12800 .f32) (harg2 : arg2.IsWhole) (arg3 : Memref sig .tc .vmem S48x12800 .f32) (harg3 : arg3.IsWhole) (arg4 : Memref sig .tc .vmem S48x12800 .f32) (harg4 : arg4.IsWhole) (arg5 : Memref sig .tc .vmem S48x12800 .f32) (harg5 : arg5.IsWhole) (arg6 : Memref sig .tc .vmem S8x16 .f32) (harg6 : arg6.IsWhole) (hc0 : cond0_0 i) (hc1 : ¬cond0_1 i)
    (x0 x1 x2 x3 : Vec F S48x12800 .f32) (q : Fin 16) :
    out0_A_4 c i arg2 harg2 arg3 harg3 arg4 harg4 arg5 harg5 arg6 harg6 hc0 hc1 x0 x1 x2 x3 (ix2 (0 : Fin 8) q)
      = k0_pay2 x1 x0 x3 x2 (View.ld (k0_pay1 (F := F)) rowRect) (ix2 (0 : Fin 1) q) := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  rw [← emb_row q]
  refine (View.canon_cons_emb _ _ _ _).trans ?_
  simp only [View.readCov_eq_canon', View.canon_unit_zero (S := S8x16) hz, View.readAt_eq_ld, harg2.read_unread,
    harg3.read_unread, harg4.read_unread, harg5.read_unread, View.ld_unit_zero (S := S48x12800) hz]

/-! ## The payloads read at an entry, on the extended reals -/

/-- The loss term of the edge in lane `l` at batch element `q`, off the four blocks (rows 16c + q hold coordinate c). -/
def laneTerm (xj xk dxj dxk : Vec Ideal S48x12800 .f32) (q : Fin 16) (l : Fin 12800) : EReal :=
  max
    ((((xk (ix2 ⟨q.val, by omega⟩ l) - xj (ix2 ⟨q.val, by omega⟩ l)) * (xk (ix2 ⟨q.val, by omega⟩ l) - xj (ix2 ⟨q.val, by omega⟩ l))
        + (xk (ix2 ⟨16 + q.val, by omega⟩ l) - xj (ix2 ⟨16 + q.val, by omega⟩ l)) * (xk (ix2 ⟨16 + q.val, by omega⟩ l) - xj (ix2 ⟨16 + q.val, by omega⟩ l)))
        + (xk (ix2 ⟨32 + q.val, by omega⟩ l) - xj (ix2 ⟨32 + q.val, by omega⟩ l)) * (xk (ix2 ⟨32 + q.val, by omega⟩ l) - xj (ix2 ⟨32 + q.val, by omega⟩ l)))
      - (((dxk (ix2 ⟨q.val, by omega⟩ l) - dxj (ix2 ⟨q.val, by omega⟩ l)) * (dxk (ix2 ⟨q.val, by omega⟩ l) - dxj (ix2 ⟨q.val, by omega⟩ l))
        + (dxk (ix2 ⟨16 + q.val, by omega⟩ l) - dxj (ix2 ⟨16 + q.val, by omega⟩ l)) * (dxk (ix2 ⟨16 + q.val, by omega⟩ l) - dxj (ix2 ⟨16 + q.val, by omega⟩ l)))
        + (dxk (ix2 ⟨32 + q.val, by omega⟩ l) - dxj (ix2 ⟨32 + q.val, by omega⟩ l)) * (dxk (ix2 ⟨32 + q.val, by omega⟩ l) - dxj (ix2 ⟨32 + q.val, by omega⟩ l))))
    (-((((xk (ix2 ⟨q.val, by omega⟩ l) - xj (ix2 ⟨q.val, by omega⟩ l)) * (xk (ix2 ⟨q.val, by omega⟩ l) - xj (ix2 ⟨q.val, by omega⟩ l))
        + (xk (ix2 ⟨16 + q.val, by omega⟩ l) - xj (ix2 ⟨16 + q.val, by omega⟩ l)) * (xk (ix2 ⟨16 + q.val, by omega⟩ l) - xj (ix2 ⟨16 + q.val, by omega⟩ l)))
        + (xk (ix2 ⟨32 + q.val, by omega⟩ l) - xj (ix2 ⟨32 + q.val, by omega⟩ l)) * (xk (ix2 ⟨32 + q.val, by omega⟩ l) - xj (ix2 ⟨32 + q.val, by omega⟩ l)))
      - (((dxk (ix2 ⟨q.val, by omega⟩ l) - dxj (ix2 ⟨q.val, by omega⟩ l)) * (dxk (ix2 ⟨q.val, by omega⟩ l) - dxj (ix2 ⟨q.val, by omega⟩ l))
        + (dxk (ix2 ⟨16 + q.val, by omega⟩ l) - dxj (ix2 ⟨16 + q.val, by omega⟩ l)) * (dxk (ix2 ⟨16 + q.val, by omega⟩ l) - dxj (ix2 ⟨16 + q.val, by omega⟩ l)))
        + (dxk (ix2 ⟨32 + q.val, by omega⟩ l) - dxj (ix2 ⟨32 + q.val, by omega⟩ l)) * (dxk (ix2 ⟨32 + q.val, by omega⟩ l) - dxj (ix2 ⟨32 + q.val, by omega⟩ l)))))

/-- A slice of 16 rows at row offset `o` of a 48-row block reads row o + q. -/
theorem slice_rows (o : Nat) (ho : o + 16 ≤ 48) (v : Vec Ideal S48x12800 .f32) (h : S48x12800.Slices ![o, 0] S16x12800)
    (q : Fin 16) (l : Fin 12800) :
    extractStridedSlice S16x12800 ![o, 0] v h (ix2 q l) = v (ix2 ⟨o + q.val, by omega⟩ l) :=
  extractStridedSlice_apply ![o, 0] v h (ix2 q l) (ix2 ⟨o + q.val, by omega⟩ l) (fun a => match a with
    | ⟨0, _⟩ => rfl
    | ⟨1, _⟩ => by show l.val = 0 + l.val; omega)

/-- The accumulate payload at entry q of the row: the row read before plus the lane sums of the block. -/
theorem pay2_apply (xk xj dxk dxj : Vec Ideal S48x12800 .f32) (row : Vec Ideal S1x16 .f32) (q : Fin 16) :
    k0_pay2 (F := Ideal) xk xj dxk dxj row (ix2 (0 : Fin 1) q)
      = row (ix2 (0 : Fin 1) q) + ∑ l : Fin 12800, laneTerm xj xk dxj dxk q l := by
  unfold k0_pay2
  simp only [shapeCast_self]
  rw [addf_apply]
  refine congrArg (row (ix2 (0 : Fin 1) q) + ·) ?_
  refine (shapeCast_apply _ shapeCasts_S16_S1x16 (ix2 (0 : Fin 1) q) (ix1 q) (by
    rewrite [Shape.rowMajor_val_two, Shape.rowMajor_val_one]; show q.val = 0 * 16 + q.val; omega)).trans ?_
  refine (Ideal.multiReduction_add_single _ _ reduces_S16x12800_S16 _ _ (ix1 q)).trans ?_
  refine Finset.sum_congr rfl fun (l : Fin 12800) _ => ?_
  have hl : reduces_S16x12800_S16.lift (ix1 q) l = ix2 q l := by
    funext a; match a with | ⟨0, _⟩ => rfl | ⟨1, _⟩ => rfl
  rw [hl]
  unfold laneTerm
  show max _ (-_) = _
  simp only [subf_apply, addf_apply, mulf_apply, slice_rows 0 (by omega), slice_rows 16 (by omega), slice_rows 32 (by omega),
    Nat.zero_add]

/-- The folded reciprocal denotes 1/1199919 by the certificate's table. -/
theorem inv_e : Named.named (F := Ideal) Cert.KernelIdeal.κ "inv_e" (φ := .f32) 0x355FB619#32 = ((1 / 1199919 : ℝ) : EReal) :=
  IdealRules.named_const.ideal_named_scalar _ _ _ _ rfl

/-- The scale payload at entry q: the row's entry times the folded reciprocal. -/
theorem pay3_apply (row : Vec Ideal S1x16 .f32) (q : Fin 16) :
    k0_pay3 (F := Ideal) row (ix2 (0 : Fin 1) q) = row (ix2 (0 : Fin 1) q) * ((1 / 1199919 : ℝ) : EReal) := by
  unfold k0_pay3
  simp only [shapeCast_self]
  rw [mulf_apply, broadcast_apply, inv_e]

/-- A row read off a block is the block's row 0. -/
theorem ld_row (X : Vec Ideal S8x16 .f32) (q : Fin 16) : View.ld X rowRect (ix2 (0 : Fin 1) q) = X (ix2 (0 : Fin 8) q) :=
  congrArg X (emb_row q)

/-- FIRST BLOCK of a half: row 0 becomes 0 plus the block's lane sums. -/
theorem row_A (c : Dev nD) (i : grid0.Coords) (arg2 : Memref sig .tc .vmem S48x12800 .f32) (harg2 : arg2.IsWhole) (arg3 : Memref sig .tc .vmem S48x12800 .f32) (harg3 : arg3.IsWhole) (arg4 : Memref sig .tc .vmem S48x12800 .f32) (harg4 : arg4.IsWhole) (arg5 : Memref sig .tc .vmem S48x12800 .f32) (harg5 : arg5.IsWhole) (arg6 : Memref sig .tc .vmem S8x16 .f32) (harg6 : arg6.IsWhole) (hc0 : cond0_0 i) (hc1 : ¬cond0_1 i)
    (x0 x1 x2 x3 : Vec Ideal S48x12800 .f32) (q : Fin 16) :
    out0_A_4 c i arg2 harg2 arg3 harg3 arg4 harg4 arg5 harg5 arg6 harg6 hc0 hc1 x0 x1 x2 x3 (ix2 (0 : Fin 8) q) = 0 + ∑ l : Fin 12800, laneTerm x0 x1 x2 x3 q l := by
  rw [out_A_row, pay2_apply, ld_row]
  refine congrArg (· + _) ?_
  unfold k0_pay1
  rw [broadcast_apply]
  exact Ideal.ofBits_zero_f32

/-- MIDDLE BLOCK: row 0 becomes what it held plus the block's lane sums. -/
theorem row_B (c : Dev nD) (i : grid0.Coords) (arg2 : Memref sig .tc .vmem S48x12800 .f32) (harg2 : arg2.IsWhole) (arg3 : Memref sig .tc .vmem S48x12800 .f32) (harg3 : arg3.IsWhole) (arg4 : Memref sig .tc .vmem S48x12800 .f32) (harg4 : arg4.IsWhole) (arg5 : Memref sig .tc .vmem S48x12800 .f32) (harg5 : arg5.IsWhole) (arg6 : Memref sig .tc .vmem S8x16 .f32) (harg6 : arg6.IsWhole) (hc0 : ¬cond0_0 i) (hc1 : ¬cond0_1 i)
    (x0 x1 x2 x3 : Vec Ideal S48x12800 .f32) (xo4 : Vec Ideal S8x16 .f32) (q : Fin 16) :
    out0_B_4 c i arg2 harg2 arg3 harg3 arg4 harg4 arg5 harg5 arg6 harg6 hc0 hc1 x0 x1 x2 x3 xo4 (ix2 (0 : Fin 8) q)
      = xo4 (ix2 (0 : Fin 8) q) + ∑ l : Fin 12800, laneTerm x0 x1 x2 x3 q l := by
  rw [out_B_row, pay2_apply, ld_row]

/-- LAST BLOCK of a half: row 0 becomes what it held plus the block's lane sums, scaled by the folded reciprocal. -/
theorem row_C (c : Dev nD) (i : grid0.Coords) (arg2 : Memref sig .tc .vmem S48x12800 .f32) (harg2 : arg2.IsWhole) (arg3 : Memref sig .tc .vmem S48x12800 .f32) (harg3 : arg3.IsWhole) (arg4 : Memref sig .tc .vmem S48x12800 .f32) (harg4 : arg4.IsWhole) (arg5 : Memref sig .tc .vmem S48x12800 .f32) (harg5 : arg5.IsWhole) (arg6 : Memref sig .tc .vmem S8x16 .f32) (harg6 : arg6.IsWhole) (hc0 : ¬cond0_0 i) (hc1 : cond0_1 i)
    (x0 x1 x2 x3 : Vec Ideal S48x12800 .f32) (xo4 : Vec Ideal S8x16 .f32) (q : Fin 16) :
    out0_C_4 c i arg2 harg2 arg3 harg3 arg4 harg4 arg5 harg5 arg6 harg6 hc0 hc1 x0 x1 x2 x3 xo4 (ix2 (0 : Fin 8) q)
      = (xo4 (ix2 (0 : Fin 8) q) + ∑ l : Fin 12800, laneTerm x0 x1 x2 x3 q l) * ((1 / 1199919 : ℝ) : EReal) := by
  rw [out_C_row, pay3_apply, pay2_apply, ld_row]

end Cert.KernelIdeal.BodyValue

end
-- ==== Proof.KernelFold.lean ====
/-
  Row 0 of the output block after every grid point, by induction over the points.

  The grid has 94 points in point order t = 47κ + i (κ the half, i the block within the half).
  Write S(t, q) for the lane sums of block t at batch element q. After point t row 0 holds
    0 + S(t)                         at the first block of a half (the block was zeroed),
    what it held before + S(t)       at a middle block,
    (what it held before + S(t)) · (1/1199919)   at the last block of a half.
  Unrolled over a half this is (0 + S(47κ) + … + S(47κ + 46)) · (1/1199919), a sum of 47 block sums.
-/
import proofs.«415139_j7052336300349_3_alg».proof.Proof.KernelBody
import Mathlib.Algebra.BigOperators.Fin

noncomputable section

namespace Cert.KernelIdeal.BodyValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The four input blocks at point t, at their literal type. -/
abbrev blkXj (c : Dev nD) (t : Fin cfg0.N) : Vec Ideal S48x12800 .f32 := iblk m c 0 t
abbrev blkXk (c : Dev nD) (t : Fin cfg0.N) : Vec Ideal S48x12800 .f32 := iblk m c 1 t
abbrev blkDxj (c : Dev nD) (t : Fin cfg0.N) : Vec Ideal S48x12800 .f32 := iblk m c 2 t
abbrev blkDxk (c : Dev nD) (t : Fin cfg0.N) : Vec Ideal S48x12800 .f32 := iblk m c 3 t

/-- The lane sums of block n at batch element q. -/
def laneSum (c : Dev nD) (n : ℕ) (h : n < cfg0.N) (q : Fin 16) : EReal :=
  ∑ l : Fin 12800, laneTerm (blkXj m c ⟨n, h⟩) (blkXk m c ⟨n, h⟩) (blkDxj m c ⟨n, h⟩) (blkDxk m c ⟨n, h⟩) q l

/-- Row 0 of the output block after point n, entry q. -/
def rowAt (c : Dev nD) : (n : ℕ) → n < cfg0.N → Fin 16 → EReal
  | 0, h => fun q => 0 + laneSum m c 0 h q
  | n + 1, h => fun q =>
      if (n + 1) % 47 = 0 then 0 + laneSum m c (n + 1) h q
      else if (n + 1) % 47 = 46 then
        (rowAt c n (Nat.lt_of_succ_lt h) q + laneSum m c (n + 1) h q) * ((1 / 1199919 : ℝ) : EReal)
      else rowAt c n (Nat.lt_of_succ_lt h) q + laneSum m c (n + 1) h q

/-- What the run leaves in row 0 of the output's staging block after point n is `rowAt`. -/
theorem outsAt_row (c : Dev nD) : ∀ (n : ℕ) (h : n < cfg0.N) (q : Fin 16),
    (outsAt0 m c n h : Vec Ideal S8x16 .f32) (ix2 (0 : Fin 8) q) = rowAt m c n h q
  | 0, h, q => by
    rw [outsAt0_A m c ⟨0, h⟩ rfl (by show ¬(0 % 47 = 46); decide)]
    exact row_A c _ _ _ _ _ _ _ _ _ _ _ _ _ (iblk m c 0 ⟨0, h⟩) (iblk m c 1 ⟨0, h⟩) (iblk m c 2 ⟨0, h⟩) (iblk m c 3 ⟨0, h⟩) q
  | n + 1, h, q => by
    have hN : cfg0.N = 94 := N_0
    by_cases h0 : (n + 1) % 47 = 0
    · have h1 : ¬(n + 1) % 47 = 46 := by omega
      rw [outsAt0_A m c ⟨n + 1, h⟩ h0 h1]
      simp only [rowAt, if_pos h0]
      exact row_A c _ _ _ _ _ _ _ _ _ _ _ _ _ (iblk m c 0 ⟨n + 1, h⟩) (iblk m c 1 ⟨n + 1, h⟩) (iblk m c 2 ⟨n + 1, h⟩) (iblk m c 3 ⟨n + 1, h⟩) q
    · by_cases h1 : (n + 1) % 47 = 46
      · rw [outsAt0_C m c ⟨n + 1, h⟩ h0 h1]
        simp only [rowAt, if_neg h0, if_pos h1]
        refine (row_C c _ _ _ _ _ _ _ _ _ _ _ _ _ (iblk m c 0 ⟨n + 1, h⟩) (iblk m c 1 ⟨n + 1, h⟩) (iblk m c 2 ⟨n + 1, h⟩) (iblk m c 3 ⟨n + 1, h⟩) _ q).trans ?_
        show (outsAt0 m c n _ (ix2 (0 : Fin 8) q) + _) * _ = _
        rw [outsAt_row c n]
        rfl
      · rw [outsAt0_B m c ⟨n + 1, h⟩ h0 h1]
        simp only [rowAt, if_neg h0, if_neg h1]
        refine (row_B c _ _ _ _ _ _ _ _ _ _ _ _ _ (iblk m c 0 ⟨n + 1, h⟩) (iblk m c 1 ⟨n + 1, h⟩) (iblk m c 2 ⟨n + 1, h⟩) (iblk m c 3 ⟨n + 1, h⟩) _ q).trans ?_
        show outsAt0 m c n _ (ix2 (0 : Fin 8) q) + _ = _
        rw [outsAt_row c n]
        rfl

end Cert.KernelIdeal.BodyValue

end
-- ==== Proof.KernelHalves.lean ====
/-
  Row 0 of the output block at the end of each half of the grid, in closed form: the 47 block sums of
  the half added up and scaled once by 1/1199919.
-/
import proofs.«415139_j7052336300349_3_alg».proof.Proof.KernelFold
import Mathlib.Algebra.BigOperators.Fin
import Mathlib.Algebra.BigOperators.Intervals

noncomputable section

namespace Cert.KernelIdeal.BodyValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The lane sums of block n as a total function of n (zero past the grid). -/
def blockSum (c : Dev nD) (q : Fin 16) (n : ℕ) : EReal := if h : n < cfg0.N then laneSum m c n h q else 0

theorem blockSum_of_lt (c : Dev nD) (q : Fin 16) (n : ℕ) (h : n < cfg0.N) : blockSum m c q n = laneSum m c n h q :=
  dif_pos h

theorem rowAt_first (c : Dev nD) (q : Fin 16) : ∀ (n : ℕ) (h : n < cfg0.N), n % 47 = 0 → rowAt m c n h q = 0 + laneSum m c n h q
  | 0, h, _ => rfl
  | n + 1, h, h0 => by simp only [rowAt, if_pos h0]

theorem rowAt_mid (c : Dev nD) (q : Fin 16) (n : ℕ) (h : n + 1 < cfg0.N) (h0 : ¬(n + 1) % 47 = 0) (h1 : ¬(n + 1) % 47 = 46) :
    rowAt m c (n + 1) h q = rowAt m c n (Nat.lt_of_succ_lt h) q + laneSum m c (n + 1) h q := by
  simp only [rowAt, if_neg h0, if_neg h1]

theorem rowAt_last (c : Dev nD) (q : Fin 16) (n : ℕ) (h : n + 1 < cfg0.N) (h1 : (n + 1) % 47 = 46) :
    rowAt m c (n + 1) h q
      = (rowAt m c n (Nat.lt_of_succ_lt h) q + laneSum m c (n + 1) h q) * ((1 / 1199919 : ℝ) : EReal) := by
  have h0 : ¬(n + 1) % 47 = 0 := by omega
  simp only [rowAt, if_neg h0, if_pos h1]

/-- Within half κ, after block i < 46 the row holds 0 plus the first i + 1 block sums of the half. -/
theorem rowAt_partial (c : Dev nD) (q : Fin 16) (κ : ℕ) (hκ : κ < 2) :
    ∀ (i : ℕ) (hi : i < 46) (h : 47 * κ + i < cfg0.N),
      rowAt m c (47 * κ + i) h q = 0 + ∑ j ∈ Finset.range (i + 1), blockSum m c q (47 * κ + j)
  | 0, _, h => by
    rw [rowAt_first m c q (47 * κ + 0) h (by omega), Finset.sum_range_one, blockSum_of_lt m c q _ h]
  | i + 1, hi, h => by
    have hN : cfg0.N = 94 := N_0
    show rowAt m c ((47 * κ + i) + 1) h q = _
    rw [rowAt_mid m c q (47 * κ + i) h (by omega) (by omega), rowAt_partial c q κ hκ i (by omega) (Nat.lt_of_succ_lt h),
      Finset.sum_range_succ _ (i + 1), add_assoc]
    refine congrArg (0 + ·) (congrArg (_ + ·) ?_)
    exact (blockSum_of_lt m c q _ h).symm

/-- At the end of half κ the row holds the 47 block sums of the half, scaled by 1/1199919. -/
theorem rowAt_half (c : Dev nD) (q : Fin 16) (κ : ℕ) (hκ : κ < 2) (h : 47 * κ + 46 < cfg0.N) :
    rowAt m c (47 * κ + 46) h q
      = (∑ j ∈ Finset.range 47, blockSum m c q (47 * κ + j)) * ((1 / 1199919 : ℝ) : EReal) := by
  have hN : cfg0.N = 94 := N_0
  show rowAt m c ((47 * κ + 45) + 1) h q = _
  rw [rowAt_last m c q (47 * κ + 45) h (by omega), rowAt_partial m c q κ hκ 45 (by omega) (Nat.lt_of_succ_lt h),
    Finset.sum_range_succ _ 46, zero_add]
  refine congrArg (· * _) (congrArg (_ + ·) ?_)
  exact (blockSum_of_lt m c q _ h).symm

end Cert.KernelIdeal.BodyValue

end
-- ==== Proof.KernelFinal.lean ====
/-
  The kernel's result array after the region, rows 0 and 8: the two halves' scaled sums.

  The output window's block index is (κ, 0) throughout half κ and its block is written back once, after
  the half's last point 47 κ + 46; the two write-backs land on rows [0, 8) and [8, 16) of the 16 × 16
  result, so row 8 κ of the result is row 0 of the staging block after point 47 κ + 46.
-/
import proofs.«415139_j7052336300349_3_alg».proof.Proof.KernelHalves
import Idealize.ShloMosaic.Lib.Pipeline.Value

noncomputable section

namespace Cert.KernelIdeal.BodyValue

open Idealize.ShloMosaic Idealize.ShloMosaic.TcCoe Idealize.SL.Sem Idealize.ShloMosaic.ValueIdx
open Idealize.ShloMosaic.Pipeline (Dat)
open Cert.KernelIdeal Cert.KernelIdeal.Gen

/-- The output window's block index at point t is (t div 47, 0). -/
theorem idx_out : ∀ t : Fin cfg0.N, win0_4.index t (0 : Fin 2) = t.val / 47 ∧ win0_4.index t (1 : Fin 2) = 0 :=
  (by decide +kernel : ∀ t : Fin grid0.N, win0_4.index t (0 : Fin 2) = t.val / 47 ∧ win0_4.index t (1 : Fin 2) = 0)

/-- Two different write-back points write different blocks, so their blocks share no entry of the result. -/
theorem disjoint_out : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (by
    have h0 : win0_4.index t (0 : Fin 2) = win0_4.index t' (0 : Fin 2) := congrFun h (0 : Fin 2)
    rw [(idx_out t).1, (idx_out t').1] at h0
    have h1 := (flush0_4 t).mp hf
    have h2 := (flush0_4 t').mp hf'
    exact Fin.ext (by omega))

/-- Entry (0, q) of the block written back after point 47 κ + 46 is entry (8 κ, q) of the result. -/
theorem emb_out (κ : ℕ) (hκ : κ < 2) (h : 47 * κ + 46 < cfg0.N) (q : Fin 16) :
    ((cfg0.win 4).blk ⟨47 * κ + 46, h⟩).view.emb (ix2 (0 : Fin 8) q) = (ix2 ⟨8 * κ, by omega⟩ q : S16x16.Idx) := by
  funext a
  apply Fin.ext
  match a with
  | ⟨0, _⟩ =>
    show win0_4.index ⟨47 * κ + 46, h⟩ 0 * 8 + 1 * 0 = 8 * κ
    rw [(idx_out ⟨47 * κ + 46, h⟩).1]; show (47 * κ + 46) / 47 * 8 + 1 * 0 = 8 * κ; omega
  | ⟨1, _⟩ =>
    show win0_4.index ⟨47 * κ + 46, h⟩ 1 * 16 + 1 * q.val = q.val
    rw [(idx_out ⟨47 * κ + 46, h⟩).2]; omega

variable (m : (ℓ : Loc nD τ sig) → Buf (Elt Ideal) ℓ)

/-- Row 8 κ of the result array after the region is row 0 of the staging block after the half's last point. -/
theorem arr_row (c : Dev nD) (κ : ℕ) (hκ : κ < 2) (h : 47 * κ + 46 < cfg0.N) (q : Fin 16) :
    ((dats m 0 c).arrAt 4 cfg0.N : FVec Ideal S16x16 .f32) (ix2 ⟨8 * κ, by omega⟩ q) = rowAt m c (47 * κ + 46) h q := by
  have hf : (cfg0.win 4).flush ⟨47 * κ + 46, h⟩ = true :=
    (flush0_4 ⟨47 * κ + 46, h⟩).mpr (by show (47 * κ + 46) % 47 = 46; omega)
  have hb := congrFun ((dats m 0 c).read_blk_arrAt_eq_flushed 4 disjoint_out cfg0.N ⟨47 * κ + 46, h⟩ h hf) (ix2 (0 : Fin 8) q)
  rw [View.read_apply, emb_out κ hκ h q] at hb
  refine hb.trans ?_
  show (dats m 0 c).after 4 ⟨47 * κ + 46, h⟩ (ix2 (0 : Fin 8) q) = _
  rw [after0_4]
  exact outsAt_row m c _ _ q

end Cert.KernelIdeal.BodyValue

end
-- ==== Proof.KernelRun.lean ====
/-
  The kernel program's run, read at the result: entry b of the result is row 0 of the first half's block
  plus row 0 of the second half's block, each the half's 47 block sums scaled by 1/1199919.

  After the region the host slices rows 0 and 8 out of the 16 × 16 result array, flattens each to 16
  entries and adds them.
-/
import proofs.«415139_j7052336300349_3_alg».proof.Proof.KernelFinal
import Idealize.ShloMosaic.Lib.StableHlo.Run

noncomputable section

namespace Cert.KernelIdeal.BodyValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The 16 × 16 result array after the region. -/
abbrev arrOut (c : Dev nD) : FVec Ideal S16x16 .f32 := (dats m 0 c).arrAt 4 cfg0.N

/-- The host operations after the region, applied to the result array. -/
def tailOf (A : FVec Ideal S16x16 .f32) : FVec Ideal S16 .f32 :=
  addf (shapeCast S16 (extractStridedSlice S1x16 ![0, 0] A slices_S16x16_S1x16_0_0) shapeCasts_S1x16_S16)
    (shapeCast S16 (extractStridedSlice S1x16 ![8, 0] A slices_S16x16_S1x16_8_0) shapeCasts_S1x16_S16)

/-- Entry b of the tail: the result array at (0, b) plus at (8, b). -/
theorem tailOf_apply (A : FVec Ideal S16x16 .f32) (b : Fin 16) :
    tailOf A (ix1 b) = A (ix2 (⟨0, by decide⟩ : Fin 16) b) + A (ix2 (⟨8, by decide⟩ : Fin 16) b) := by
  unfold tailOf
  rw [addf_apply]
  have hc : ∀ (X : FVec Ideal S1x16 .f32), shapeCast S16 X shapeCasts_S1x16_S16 (ix1 b) = X (ix2 (0 : Fin 1) b) := fun X =>
    shapeCast_apply X shapeCasts_S1x16_S16 (ix1 b) (ix2 (0 : Fin 1) b) (by
      rewrite [Shape.rowMajor_val_two, Shape.rowMajor_val_one]; show 0 * 16 + b.val = b.val; omega)
  rw [hc, hc]
  rw [extractStridedSlice_apply ![0, 0] A slices_S16x16_S1x16_0_0 (ix2 (0 : Fin 1) b) (ix2 (⟨0, by decide⟩ : Fin 16) b) (fun a => match a with
      | ⟨0, _⟩ => rfl
      | ⟨1, _⟩ => by show b.val = 0 + b.val; omega),
    extractStridedSlice_apply ![8, 0] A slices_S16x16_S1x16_8_0 (ix2 (0 : Fin 1) b) (ix2 (⟨8, by decide⟩ : Fin 16) b) (fun a => match a with
      | ⟨0, _⟩ => rfl
      | ⟨1, _⟩ => by show b.val = 0 + b.val; omega)]

set_option maxHeartbeats 400000 in
/-- What the host leaves in the program's result buffer. -/
theorem tail_term (c : Dev nD) :
    (Pipeline.afterTail₀ cfgs (dats m) 0 (V0 m) [hostOps1] c main_v20 : FVec Ideal S16 .f32) = tailOf (arrOut m c) := by
  unfold Pipeline.afterTail₀
  show StableHlo.after hostOps1 _ (Proc.devRef .tc main_v20) = _
  after_results
  have e : Pipeline.withArrays (cfgs 0).spec c (V0 m c) (fun w => (dats m 0 c).arrAt w (cfgs 0).N) (Proc.tc.devRef main_v15)
      = arrOut m c :=
    Pipeline.withArrays_arr spec0 launch0.win.arr_inj c (V0 m c) (fun w => (dats m 0 c).arrAt w (cfgs 0).N) 4
  generalize Pipeline.withArrays (cfgs 0).spec c (V0 m c) (fun w => (dats m 0 c).arrAt w (cfgs 0).N) (Proc.tc.devRef main_v15) = A at e ⊢
  subst e
  rfl

set_option backward.isDefEq.respectTransparency.types false in
/-- THE RUN: every weakly fair execution of the kernel program terminates with the result buffer at the tail of the
    result array and the three arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v20) = tailOf (arrOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v20 (Pipeline.mem_restRefs_of main_v20 (by decide) (by decide))).trans (tail_term m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.BodyValue

end
-- ==== Proof.EdgeTerm.lean ====
/-
  The per-edge quantity of the ARAP loss on the extended reals, and the three facts about it that the
  comparison of the two programs uses: it is never negative, it vanishes on a degenerate edge (j = k)
  of finite vertices, and what a stored vertex word denotes once the word is known to be in range.

  For an edge (j, k) and a batch element b the loss term is
      | ‖x[b,k,:] − x[b,j,:]‖² − ‖dx[b,k,:] − dx[b,j,:]‖² |,
  the squared norms over the three coordinates. On the extended reals |s| is max s (−s).
-/
import Idealize.ShloMosaic.PureOps.Ideal
import Idealize.ShloMosaic.Lib.ValueIdx

noncomputable section

namespace Cert.Arap

open Idealize.ShloMosaic Idealize.ShloMosaic.ValueIdx

/-- The vertex arrays: 16 batch elements, 100000 vertices, 3 coordinates. -/
abbrev SV : Shape := ⟨3, ![16, 100000, 3]⟩
/-- The edge list: 1199919 directed edges, two endpoints each. -/
abbrev SEdges : Shape := ⟨2, ![1199919, 2]⟩

/-- The vertex stored at end `s` of edge `e`: the word read as a signed integer, clamped into the vertex range. -/
def vtx (edges : IVec SEdges 32) (e : Fin 1199919) (s : Fin 2) : Fin 100000 :=
  ⟨min (edges (ix2 e s)).toInt.toNat 99999, by omega⟩

/-- The same over the edge list padded with degenerate edges (0, 0) up to 94 blocks of 12800 edges. -/
def vtxPad (edges : IVec SEdges 32) (e : Fin 1203200) (s : Fin 2) : Fin 100000 :=
  if h : e.val < 1199919 then vtx edges ⟨e.val, h⟩ s else ⟨0, by decide⟩

/-- The squared distance between vertices `j` and `k` of batch element `b`, the three coordinates' squares
    added first to last. -/
def sqDist (x : FVec Ideal SV .f32) (b : Fin 16) (j k : Fin 100000) : EReal :=
  ((x (ix3 b k 0) - x (ix3 b j 0)) * (x (ix3 b k 0) - x (ix3 b j 0))
    + (x (ix3 b k 1) - x (ix3 b j 1)) * (x (ix3 b k 1) - x (ix3 b j 1)))
    + (x (ix3 b k 2) - x (ix3 b j 2)) * (x (ix3 b k 2) - x (ix3 b j 2))

/-- The loss term of edge (j, k) at batch element `b`. -/
def term (x dx : FVec Ideal SV .f32) (b : Fin 16) (j k : Fin 100000) : EReal :=
  max (sqDist x b j k - sqDist dx b j k) (-(sqDist x b j k - sqDist dx b j k))

/-- The loss term of padded edge number `e`. -/
def termPad (x dx : FVec Ideal SV .f32) (edges : IVec SEdges 32) (b : Fin 16) (e : Fin 1203200) : EReal :=
  term x dx b (vtxPad edges e 0) (vtxPad edges e 1)

/-- The folded reciprocal of the number of edges, as the certificate's table reads it. -/
abbrev invE : EReal := ((1 / 1199919 : ℝ) : EReal)

/-- An absolute value on the extended reals is never negative. -/
theorem max_neg_nonneg (s : EReal) : 0 ≤ max s (-s) := by
  rcases le_total 0 s with h | h
  · exact le_trans h (le_max_left _ _)
  · exact le_trans (EReal.neg_nonneg.mpr h) (le_max_right _ _)

theorem term_nonneg (x dx : FVec Ideal SV .f32) (b : Fin 16) (j k : Fin 100000) : 0 ≤ term x dx b j k :=
  max_neg_nonneg _

/-- A finite extended real minus itself is zero. -/
theorem sub_self_of_real {a : EReal} (h : ∃ r : ℝ, a = (r : EReal)) : a - a = 0 := by
  obtain ⟨r, rfl⟩ := h
  rw [← EReal.coe_sub, sub_self, EReal.coe_zero]

/-- The squared distance of a vertex of finite coordinates from itself is zero. -/
theorem sqDist_self (x : FVec Ideal SV .f32) (hx : ∀ i, ∃ r : ℝ, x i = (r : EReal)) (b : Fin 16) (j : Fin 100000) :
    sqDist x b j j = 0 := by
  unfold sqDist
  rw [sub_self_of_real (hx _), sub_self_of_real (hx _), sub_self_of_real (hx _)]
  simp

/-- A degenerate edge of finite vertices contributes nothing. -/
theorem term_self (x dx : FVec Ideal SV .f32) (hx : ∀ i, ∃ r : ℝ, x i = (r : EReal))
    (hdx : ∀ i, ∃ r : ℝ, dx i = (r : EReal)) (b : Fin 16) (j : Fin 100000) : term x dx b j j = 0 := by
  unfold term
  rw [sqDist_self x hx, sqDist_self dx hdx]
  simp

/-- A vertex word in range denotes itself. -/
theorem vtx_val (edges : IVec SEdges 32) (e : Fin 1199919) (s : Fin 2) (h : (edges (ix2 e s)).toNat < 100000) :
    (vtx edges e s).val = (edges (ix2 e s)).toNat := by
  unfold vtx
  have h31 : (edges (ix2 e s)).toNat < 2 ^ 31 := by omega
  have : (edges (ix2 e s)).toInt = ((edges (ix2 e s)).toNat : Int) := by
    rw [BitVec.toInt_eq_toNat_cond]; split <;> omega
  show min (edges (ix2 e s)).toInt.toNat 99999 = _
  rw [this, Int.toNat_natCast]
  omega

end Cert.Arap

end
-- ==== Proof.HostTerm.lean ====
/-
  The host operations before the kernel's region, as pure functions of the arguments: the edge list
  padded with zero rows and split into its two endpoint columns; jnp.take along the vertex axis of a
  transposed vertex array (wrap of negative words, bounds mask, gather, fill where out of bounds); and
  the flattening of (coordinate, batch) into 48 rows.
-/
import proofs.«415139_j7052336300349_3_alg».proof.KernelIdeal

noncomputable section

namespace Cert.KernelIdeal.HostValue

open Idealize.ShloMosaic Cert.KernelIdeal
open Cert.KernelIdeal.Facts₀

variable {F : FTy → Type} [FloatOps F] [Cert.KernelIdeal.Facts]

/-- The edge list padded with 3281 zero rows. -/
def padded (edges : IVec S1199919x2 32) : IVec S1203200x2 32 :=
  pad S1203200x2 ![0, 0] ![3281, 0] ![0, 0] edges (id (constantI S_ 32 0#32)) pads_S1199919x2_S1203200x2_032810_000 h_S_

/-- The first endpoints of the padded edges. -/
def col0 (edges : IVec S1199919x2 32) : IVec S1203200 32 :=
  shapeCast S1203200 (extractStridedSlice S1203200x1 ![0, 0] (padded edges) slices_S1203200x2_S1203200x1_0_0) shapeCasts_S1203200x1_S1203200

/-- The second endpoints of the padded edges. -/
def col1 (edges : IVec S1199919x2 32) : IVec S1203200 32 :=
  shapeCast S1203200 (extractStridedSlice S1203200x1 ![0, 1] (padded edges) slices_S1203200x2_S1203200x1_0_1) shapeCasts_S1203200x1_S1203200

/-- jnp.take's index normalisation: a negative word has the axis length added; the result as a column of start indices. -/
def wrapped (idx : IVec S1203200 32) : IVec S1203200x1 32 :=
  broadcastInDim S1203200x1 ![0] bcast_S1203200_S1203200x1_0
    (select (cmpi .slt idx (broadcastInDim S1203200 ![] bcast_S_S1203200 (constantI S_ 32 0#32)))
      (addi idx (broadcastInDim S1203200 ![] bcast_S_S1203200 (constantI S_ 32 100000#32))) idx)

/-- The bounds mask of jnp.take's fill mode: 0 ≤ index ≤ 99999, per start index. -/
def inBounds (w : IVec S1203200x1 32) : IVec S1203200 1 :=
  Host.reduce IntOp.andi
    (andi (cmpi .sge w (broadcastInDim S1203200x1 ![] bcast_S_S1203200x1 (constantI S_ 32 0#32)))
      (cmpi .sle w (broadcastInDim S1203200x1 ![0, 1] bcast_S1x1_S1203200x1_0_1
        (broadcastInDim S1x1 ![1] bcast_S1_S1x1_1 (constantI S1 32 99999#32)))))
    (constantI S_ 1 1#1) reducesTo_S1203200x1_S1203200_d1 h_S_

/-- jnp.take(xT, idx, axis=2) in fill mode. -/
def takeT (xT : FVec F S3x16x100000 .f32) (idx : IVec S1203200 32) : FVec F S3x16x1203200 .f32 :=
  select (broadcastInDim S3x16x1203200 ![2] bcast_S1203200_S3x16x1203200_2 (inBounds (wrapped idx)))
    (Host.gather gather_S3x16x100000_S1203200x1_S3x16x1203200_01_2_n_n_2_1_3161 xT (wrapped idx))
    (broadcastInDim S3x16x1203200 ![] bcast_S_S3x16x1203200 (constant S_ .f32 0x7FC00000#32))

/-- A vertex array transposed to (coordinate, batch, vertex), taken at `idx`, flattened to 48 rows. -/
def winArr (a : FVec F S16x100000x3 .f32) (idx : IVec S1203200 32) : FVec F S48x1203200 .f32 :=
  shapeCast S48x1203200 (takeT (transpose S3x16x100000 [2, 0, 1] a transposes_S16x100000x3_S3x16x100000_2_0_1) idx)
    shapeCasts_S3x16x1203200_S48x1203200

end Cert.KernelIdeal.HostValue

end
-- ==== Proof.HostTermEq.lean ====
/-
  The arrays the region is launched on ARE the host functions of the arguments: each of the four
  windows' arrays, as the region finds it after the host operations before it, is the flattened
  take of a transposed vertex array at one endpoint column of the padded edge list.

  The contents of a buffer after a line of operations is a composition: the operation that writes the
  buffer applies its function to the contents of its operands, and an operation that writes another
  buffer leaves it as it was. The operations of the functions called from the line (the padding, the
  index normalisation's select, the four takes) name their operands through typed references whose
  transport between the value's type and the buffer's type is the identity, since each reference's
  type is its buffer's; that identity is removed inside each operation's own function first, where it
  stands around a single variable. Reading the 82 operations back from the reshape that writes the
  window's array then gives, for each window, exactly the composition the definitions of the host
  terms spell: pad, column slice and flattening of the edge list; the wrap of negative words, the
  bounds mask, the gather from the transposed vertex array and the fill; the final flattening.
-/
import proofs.«415139_j7052336300349_3_alg».proof.Proof.Gen.KernelIdeal.Frame.Runs
import proofs.«415139_j7052336300349_3_alg».proof.Proof.HostTerm
import Idealize.ShloMosaic.Lib.StableHlo.Run

noncomputable section

namespace Cert.KernelIdeal.HostValue

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

set_option maxHeartbeats 4000000 in
/-- The first window's array: the second vertex argument, transposed, taken at the first endpoints. -/
theorem V_v11_term (c : Dev nD) :
    (V m c main_v11 : FVec F S48x1203200 .f32)
      = winArr (m ((c : Thread nD τ).loc main_arg1)) (col0 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append,
    StableHlo.TRef.unary, StableHlo.TRef.binary, StableHlo.TRef.ternary, StableHlo.TRef.nullary,
    StableHlo.TRef.ofBuf, StableHlo.TRef.toBuf, cast_eq]
  after_results_simp
  unfold winArr takeT inBounds wrapped col0 padded
  rfl

set_option maxHeartbeats 4000000 in
/-- The second window's array: the second vertex argument, transposed, taken at the second endpoints. -/
theorem V_v12_term (c : Dev nD) :
    (V m c main_v12 : FVec F S48x1203200 .f32)
      = winArr (m ((c : Thread nD τ).loc main_arg1)) (col1 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append,
    StableHlo.TRef.unary, StableHlo.TRef.binary, StableHlo.TRef.ternary, StableHlo.TRef.nullary,
    StableHlo.TRef.ofBuf, StableHlo.TRef.toBuf, cast_eq]
  after_results_simp
  unfold winArr takeT inBounds wrapped col1 padded
  rfl

set_option maxHeartbeats 4000000 in
/-- The third window's array: the first vertex argument, transposed, taken at the first endpoints. -/
theorem V_v13_term (c : Dev nD) :
    (V m c main_v13 : FVec F S48x1203200 .f32)
      = winArr (m ((c : Thread nD τ).loc main_arg0)) (col0 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append,
    StableHlo.TRef.unary, StableHlo.TRef.binary, StableHlo.TRef.ternary, StableHlo.TRef.nullary,
    StableHlo.TRef.ofBuf, StableHlo.TRef.toBuf, cast_eq]
  after_results_simp
  unfold winArr takeT inBounds wrapped col0 padded
  rfl

set_option maxHeartbeats 4000000 in
/-- The fourth window's array: the first vertex argument, transposed, taken at the second endpoints. -/
theorem V_v14_term (c : Dev nD) :
    (V m c main_v14 : FVec F S48x1203200 .f32)
      = winArr (m ((c : Thread nD τ).loc main_arg0)) (col1 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append,
    StableHlo.TRef.unary, StableHlo.TRef.binary, StableHlo.TRef.ternary, StableHlo.TRef.nullary,
    StableHlo.TRef.ofBuf, StableHlo.TRef.toBuf, cast_eq]
  after_results_simp
  unfold winArr takeT inBounds wrapped col1 padded
  rfl

end Cert.KernelIdeal.HostValue

end
-- ==== Proof.HostTermRead.lean ====
/-
  The host functions read at an index. An endpoint column of the padded edge list reads the edge
  list's word below 1199919 and the zero word from there on; the flattened take of a transposed
  vertex array, at start words all in range, reads the vertex array at
  (batch r mod 16, the word of padded edge e, coordinate r div 16): the wrap does not apply, the
  bounds mask is set, the gather's clamp is the identity.
-/
import proofs.«415139_j7052336300349_3_alg».proof.Proof.HostTerm
import proofs.«415139_j7052336300349_3_alg».proof.Proof.EdgeTerm
import Idealize.ShloMosaic.Lib.StableHlo.Predicate
import Idealize.ShloMosaic.Lib.Pipeline.Value
import Idealize.ShloMosaic.Lib.ValueLayout
import Idealize.ShloMosaic.Lib.ReduceAll
import Idealize.ShloMosaic.Lib.KernelVsHost

noncomputable section

namespace Cert.KernelIdeal.HostValue

open Idealize.ShloMosaic Idealize.ShloMosaic.ValueIdx
open Cert.KernelIdeal Cert.Arap
open Cert.KernelIdeal.Facts₀

variable [Cert.KernelIdeal.Facts]

/-- The padded edge list at row `e`, column `s`: the edge list's word on the first 1199919 rows, the
    padding value, the zero word, on the 3281 rows after them. -/
theorem padded_apply (edges : IVec S1199919x2 32) (e : Fin 1203200) (s : Fin 2) :
    padded edges (ix2 e s) = if h : e.val < 1199919 then edges (ix2 ⟨e.val, h⟩ s) else 0#32 := by
  unfold padded
  by_cases h : e.val < 1199919
  · rw [dif_pos h]
    exact pad_apply_of_inside _ _ _ edges _ pads_S1199919x2_S1203200x2_032810_000 h_S_ (ix2 e s) (ix2 ⟨e.val, h⟩ s)
      (fun a => match a with
        | ⟨0, _⟩ => by show e.val = 0 + e.val * (0 + 1); omega
        | ⟨1, _⟩ => by show s.val = 0 + s.val * (0 + 1); omega)
  · rw [dif_neg h]
    exact pad_apply_of_not_inside _ _ _ edges _ pads_S1199919x2_S1203200x2_032810_000 h_S_ (ix2 e s) (0 : Fin 2)
      (fun hin => h (by
        have h3 : (e.val - 0) / (0 + 1) < 1199919 := hin.2.2
        omega))

/-- Column `s` of a two-column array, flattened, at position `e`: the array at row `e`, column `s`. The slice
    shifts the column coordinate by its offset, the reshape keeps the row-major position. -/
theorem column_apply (x : IVec S1203200x2 32) (s : Fin 2) (h : S1203200x2.Slices ![0, s.val] S1203200x1) (e : Fin 1203200) :
    shapeCast S1203200 (extractStridedSlice S1203200x1 ![0, s.val] x h) shapeCasts_S1203200x1_S1203200 (ix1 e)
      = x (ix2 e s) := by
  refine (shapeCast_apply _ shapeCasts_S1203200x1_S1203200 (ix1 e) (ix2 e (0 : Fin 1)) ?_).trans ?_
  · rw [Shape.rowMajor_val_two, Shape.rowMajor_val_one]
    show e.val * 1 + 0 = e.val
    omega
  · exact extractStridedSlice_apply ![0, s.val] x h (ix2 e (0 : Fin 1)) (ix2 e s)
      (fun a => match a with
        | ⟨0, _⟩ => by show e.val = 0 + e.val; omega
        | ⟨1, _⟩ => by show s.val = s.val + 0; omega)

theorem col0_apply (edges : IVec S1199919x2 32) (e : Fin 1203200) :
    col0 edges (ix1 e) = if h : e.val < 1199919 then edges (ix2 ⟨e.val, h⟩ (0 : Fin 2)) else 0#32 := by
  unfold col0
  exact (column_apply (padded edges) (0 : Fin 2) slices_S1203200x2_S1203200x1_0_0 e).trans (padded_apply edges e 0)

theorem col1_apply (edges : IVec S1199919x2 32) (e : Fin 1203200) :
    col1 edges (ix1 e) = if h : e.val < 1199919 then edges (ix2 ⟨e.val, h⟩ (1 : Fin 2)) else 0#32 := by
  unfold col1
  exact (column_apply (padded edges) (1 : Fin 2) slices_S1203200x2_S1203200x1_0_1 e).trans (padded_apply edges e 1)

/-- A start word below 100000 is not negative as a signed word, so jnp.take's wrap leaves it alone: the
    column of wrapped start indices reads the start word itself. -/
theorem wrapped_apply (idx : IVec S1203200 32) (hidx : ∀ i, (idx i).toNat < 100000) (e : Fin 1203200) (q : Fin 1) :
    wrapped idx (ix2 e q) = idx (ix1 e) := by
  unfold wrapped
  refine (broadcastInDim_apply _ bcast_S1203200_S1203200x1_0 _ (ix2 e q) (ix1 e) (fun a => match a with
    | ⟨0, _⟩ => by
      show e.val = if (1203200 : Nat) = 1 then 0 else e.val
      rw [if_neg (by decide)])).trans ?_
  rw [select_apply]
  have hc : cmpi .slt idx (broadcastInDim S1203200 ![] bcast_S_S1203200 (constantI S_ 32 0#32)) (ix1 e) = 0#1 := by
    refine eq_zero_of_ne_one fun h1 => ?_
    have h2 : IntOp.cmpi .slt (idx (ix1 e)) 0#32 = 1#1 := h1
    have h3 := (StableHlo.Predicate.slt_iff_toNat (by have := hidx (ix1 e); omega) (by decide)).1 h2
    exact Nat.not_lt_zero _ h3
  rw [hc, select_zero]

/-- The two signed comparisons 0 ≤ w and w ≤ 99999 both hold at a word whose value is below 100000. -/
theorem range_bit_apply (w : IVec S1203200x1 32) (e : Fin 1203200) (q : Fin 1) (hw : (w (ix2 e q)).toNat < 100000) :
    andi (cmpi .sge w (broadcastInDim S1203200x1 ![] bcast_S_S1203200x1 (constantI S_ 32 0#32)))
      (cmpi .sle w (broadcastInDim S1203200x1 ![0, 1] bcast_S1x1_S1203200x1_0_1
        (broadcastInDim S1x1 ![1] bcast_S1_S1x1_1 (constantI S1 32 99999#32)))) (ix2 e q) = 1#1 := by
  show IntOp.andi (IntOp.cmpi .sge (w (ix2 e q)) 0#32) (IntOp.cmpi .sle (w (ix2 e q)) 99999#32) = 1#1
  exact IntOp.andi_eq_one.2 ⟨(StableHlo.Predicate.sge_iff_toNat (by omega) (by decide)).2 (Nat.zero_le _),
    (StableHlo.Predicate.sle_iff_toNat (by omega) (by decide)).2 (by
      show (w (ix2 e q)).toNat ≤ 99999
      omega)⟩

/-- A left fold by 'and' from 1 over bits that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

/-- With every start word in range the bounds mask of the take is set at every start index: each entry of
    the reduced column is 1, and the reduction by 'and' starts from 1. -/
theorem inBounds_apply (idx : IVec S1203200 32) (hidx : ∀ i, (idx i).toNat < 100000) (e : Fin 1203200) :
    inBounds (wrapped idx) (ix1 e) = 1#1 := by
  unfold inBounds
  rw [Host.reduce_eq_foldl]
  refine foldl_andi_of_all_one _ (fun i => ?_) _
  obtain ⟨p, q, rfl⟩ : ∃ (p : Fin 1203200) (q : Fin 1), i = ix2 p q := ⟨i 0, i 1, eq_ix2 i⟩
  exact range_bit_apply (wrapped idx) p q (by rw [wrapped_apply idx hidx]; exact hidx _)

/-- The take's gather at (coordinate, batch, edge): the two leading result axes are the operand's own two
    leading axes (the offset axes), the last result axis is the one batch axis, which reads the start-index column at
    row `e`; the start word, read signed and clamped into the vertex axis, is the coordinate on the collapsed third
    operand axis. -/
theorem gather_apply {α : Type} (xT : S3x16x100000.Idx → α) (w : IVec S1203200x1 32) (comp : Fin 3) (b : Fin 16)
    (e : Fin 1203200) :
    Host.gather gather_S3x16x100000_S1203200x1_S3x16x1203200_01_2_n_n_2_1_3161 xT w (ix3 comp b e)
      = xT (ix3 comp b ⟨min (w (ix2 e (0 : Fin 1))).toInt.toNat 99999, by omega⟩) := by
  unfold Host.gather
  refine congrArg xT (funext fun a => Fin.ext ?_)
  match a with
  | ⟨0, _⟩ =>
    have hs : GatherDims.start gather_S3x16x100000_S1203200x1_S3x16x1203200_01_2_n_n_2_1_3161 (ix3 comp b e) w (0 : Fin 3) = 0 := rfl
    have hb : GatherDims.batchCoord gather_S3x16x100000_S1203200x1_S3x16x1203200_01_2_n_n_2_1_3161 (ix3 comp b e) (0 : Fin 3) = 0 := rfl
    have ho : GatherDims.offCoord gather_S3x16x100000_S1203200x1_S3x16x1203200_01_2_n_n_2_1_3161 (ix3 comp b e) (0 : Fin 3) = comp.val := rfl
    show GatherDims.start gather_S3x16x100000_S1203200x1_S3x16x1203200_01_2_n_n_2_1_3161 (ix3 comp b e) w (0 : Fin 3)
      + GatherDims.batchCoord gather_S3x16x100000_S1203200x1_S3x16x1203200_01_2_n_n_2_1_3161 (ix3 comp b e) (0 : Fin 3)
      + GatherDims.offCoord gather_S3x16x100000_S1203200x1_S3x16x1203200_01_2_n_n_2_1_3161 (ix3 comp b e) (0 : Fin 3) = comp.val
    rw [hs, hb, ho, Nat.add_zero, Nat.zero_add]
  | ⟨1, _⟩ =>
    have hs : GatherDims.start gather_S3x16x100000_S1203200x1_S3x16x1203200_01_2_n_n_2_1_3161 (ix3 comp b e) w (1 : Fin 3) = 0 := rfl
    have hb : GatherDims.batchCoord gather_S3x16x100000_S1203200x1_S3x16x1203200_01_2_n_n_2_1_3161 (ix3 comp b e) (1 : Fin 3) = 0 := rfl
    have ho : GatherDims.offCoord gather_S3x16x100000_S1203200x1_S3x16x1203200_01_2_n_n_2_1_3161 (ix3 comp b e) (1 : Fin 3) = b.val := rfl
    show GatherDims.start gather_S3x16x100000_S1203200x1_S3x16x1203200_01_2_n_n_2_1_3161 (ix3 comp b e) w (1 : Fin 3)
      + GatherDims.batchCoord gather_S3x16x100000_S1203200x1_S3x16x1203200_01_2_n_n_2_1_3161 (ix3 comp b e) (1 : Fin 3)
      + GatherDims.offCoord gather_S3x16x100000_S1203200x1_S3x16x1203200_01_2_n_n_2_1_3161 (ix3 comp b e) (1 : Fin 3) = b.val
    rw [hs, hb, ho, Nat.add_zero, Nat.zero_add]
  | ⟨2, _⟩ =>
    have hs : GatherDims.start gather_S3x16x100000_S1203200x1_S3x16x1203200_01_2_n_n_2_1_3161 (ix3 comp b e) w (2 : Fin 3)
        = min (w (ix2 e (0 : Fin 1))).toInt.toNat 99999 := by
      unfold GatherDims.start
      rw [dif_pos (show (2 : Fin 3) ∈ GatherDims.startIndexMap gather_S3x16x100000_S1203200x1_S3x16x1203200_01_2_n_n_2_1_3161
        from List.mem_singleton.mpr rfl)]
      have hsi : GatherDims.siIdx gather_S3x16x100000_S1203200x1_S3x16x1203200_01_2_n_n_2_1_3161 (ix3 comp b e)
          ⟨List.idxOf (2 : Fin 3) (GatherDims.startIndexMap gather_S3x16x100000_S1203200x1_S3x16x1203200_01_2_n_n_2_1_3161),
            List.idxOf_lt_length_iff.2 (List.mem_singleton.mpr rfl)⟩ = ix2 e (0 : Fin 1) := by
        funext c
        refine Fin.ext ?_
        match c with
        | ⟨0, _⟩ => rfl
        | ⟨1, _⟩ => rfl
      rw [hsi]
      rfl
    have hb : GatherDims.batchCoord gather_S3x16x100000_S1203200x1_S3x16x1203200_01_2_n_n_2_1_3161 (ix3 comp b e) (2 : Fin 3) = 0 := rfl
    have ho : GatherDims.offCoord gather_S3x16x100000_S1203200x1_S3x16x1203200_01_2_n_n_2_1_3161 (ix3 comp b e) (2 : Fin 3) = 0 := rfl
    show GatherDims.start gather_S3x16x100000_S1203200x1_S3x16x1203200_01_2_n_n_2_1_3161 (ix3 comp b e) w (2 : Fin 3)
      + GatherDims.batchCoord gather_S3x16x100000_S1203200x1_S3x16x1203200_01_2_n_n_2_1_3161 (ix3 comp b e) (2 : Fin 3)
      + GatherDims.offCoord gather_S3x16x100000_S1203200x1_S3x16x1203200_01_2_n_n_2_1_3161 (ix3 comp b e) (2 : Fin 3) = min (w (ix2 e (0 : Fin 1))).toInt.toNat 99999
    rw [hs, hb, ho, Nat.add_zero]

/-- The take in fill mode at (coordinate, batch, edge), every start word in range: the mask bit is set, so the
    select keeps the gathered element, and the clamp of a word below 100000 is the word's own value. -/
theorem takeT_apply {F : FTy → Type} [FloatOps F] (xT : FVec F S3x16x100000 .f32) (idx : IVec S1203200 32)
    (hidx : ∀ i, (idx i).toNat < 100000) (comp : Fin 3) (b : Fin 16) (e : Fin 1203200) :
    takeT xT idx (ix3 comp b e) = xT (ix3 comp b ⟨(idx (ix1 e)).toNat, hidx _⟩) := by
  unfold takeT
  rw [select_apply]
  have hm : broadcastInDim S3x16x1203200 ![2] bcast_S1203200_S3x16x1203200_2 (inBounds (wrapped idx)) (ix3 comp b e) = 1#1 :=
    (broadcastInDim_apply _ bcast_S1203200_S3x16x1203200_2 _ (ix3 comp b e) (ix1 e) (fun a => match a with
      | ⟨0, _⟩ => by
        show e.val = if (1203200 : Nat) = 1 then 0 else e.val
        rw [if_neg (by decide)])).trans (inBounds_apply idx hidx e)
  rw [hm, select_one, gather_apply]
  refine congrArg xT (congrArg (ix3 comp b) (Fin.ext ?_))
  show min (wrapped idx (ix2 e (0 : Fin 1))).toInt.toNat 99999 = (idx (ix1 e)).toNat
  have hlt := hidx (ix1 e)
  rw [wrapped_apply idx hidx, StableHlo.Predicate.toInt_eq_toNat_of_lt (by omega), Int.toNat_natCast]
  omega

theorem winArr_apply (a : FVec Ideal S16x100000x3 .f32) (idx : IVec S1203200 32)
    (hidx : ∀ i, (idx i).toNat < 100000) (r : Fin 48) (e : Fin 1203200) :
    winArr (F := Ideal) a idx (ix2 r e)
      = a (ix3 ⟨r.val % 16, Nat.mod_lt _ (by decide)⟩ ⟨(idx (ix1 e)).toNat, hidx _⟩ ⟨r.val / 16, by have := r.isLt; omega⟩) := by
  unfold winArr
  refine (shapeCast_apply _ shapeCasts_S3x16x1203200_S48x1203200 (ix2 r e)
    (ix3 (⟨r.val / 16, by have := r.isLt; omega⟩ : Fin 3) (⟨r.val % 16, Nat.mod_lt _ (by decide)⟩ : Fin 16) e) ?_).trans ?_
  · rw [Shape.rowMajor_val_three, Shape.rowMajor_val_two]
    show (r.val / 16 * 16 + r.val % 16) * 1203200 + e.val = r.val * 1203200 + e.val
    omega
  · refine (takeT_apply _ idx hidx _ _ e).trans ?_
    exact transpose_apply [2, 0, 1] a transposes_S16x100000x3_S3x16x100000_2_0_1 _ _
      (fun c => match c with
        | ⟨0, _⟩ => rfl
        | ⟨1, _⟩ => rfl
        | ⟨2, _⟩ => rfl)

end Cert.KernelIdeal.HostValue

end
-- ==== Proof.HostGather.lean ====
/-
  The four arrays the kernel's region is launched on, read at an index: each is a vertex array
  transposed to (coordinate, batch, vertex), gathered along the vertex axis at one endpoint column of
  the padded edge list, and flattened to 48 rows (row = 16 · coordinate + batch). For vertex words in
  range the gather's fill never applies, so entry (r, e) is the vertex array at
  (batch r mod 16, the endpoint of padded edge e, coordinate r div 16).
-/
import proofs.«415139_j7052336300349_3_alg».proof.Proof.Gen.KernelIdeal.Frame.Runs
import proofs.«415139_j7052336300349_3_alg».proof.Proof.EdgeTerm
import proofs.«415139_j7052336300349_3_alg».proof.Proof.HostTermEq
import proofs.«415139_j7052336300349_3_alg».proof.Proof.HostTermRead

noncomputable section

namespace Cert.KernelIdeal.HostValue

open Idealize.ShloMosaic Idealize.ShloMosaic.TcCoe Idealize.ShloMosaic.ValueIdx Idealize.SL.Sem
open Cert.KernelIdeal Cert.KernelIdeal.Gen Cert.Arap

/-- The words of an endpoint column of the padded list are in range when the edge list's are (the padding is the word 0). -/
theorem col0_lt (edges : IVec S1199919x2 32) (hin : ∀ i, (edges i).toNat < 100000) (i : S1203200.Idx) :
    (col0 edges i).toNat < 100000 := by
  obtain ⟨e, rfl⟩ : ∃ e : Fin 1203200, i = ix1 e := ⟨i 0, eq_ix1 (n := 1203200) i⟩
  rw [col0_apply]
  split
  · exact hin _
  · decide

theorem col1_lt (edges : IVec S1199919x2 32) (hin : ∀ i, (edges i).toNat < 100000) (i : S1203200.Idx) :
    (col1 edges i).toNat < 100000 := by
  obtain ⟨e, rfl⟩ : ∃ e : Fin 1203200, i = ix1 e := ⟨i 0, eq_ix1 (n := 1203200) i⟩
  rw [col1_apply]
  split
  · exact hin _
  · decide

/-- The word of padded edge e in column 0 denotes the padded edge's first endpoint. -/
theorem col0_vtx (edges : IVec S1199919x2 32) (hin : ∀ i, (edges i).toNat < 100000) (e : Fin 1203200)
    (h : (col0 edges (ix1 e)).toNat < 100000) :
    (⟨(col0 edges (ix1 e)).toNat, h⟩ : Fin 100000) = vtxPad edges e 0 := by
  apply Fin.ext
  show (col0 edges (ix1 e)).toNat = (vtxPad edges e 0).val
  unfold vtxPad
  rw [col0_apply]
  split
  · rename_i he
    exact (vtx_val edges ⟨e.val, he⟩ 0 (hin _)).symm
  · rfl

theorem col1_vtx (edges : IVec S1199919x2 32) (hin : ∀ i, (edges i).toNat < 100000) (e : Fin 1203200)
    (h : (col1 edges (ix1 e)).toNat < 100000) :
    (⟨(col1 edges (ix1 e)).toNat, h⟩ : Fin 100000) = vtxPad edges e 1 := by
  apply Fin.ext
  show (col1 edges (ix1 e)).toNat = (vtxPad edges e 1).val
  unfold vtxPad
  rw [col1_apply]
  split
  · rename_i he
    exact (vtx_val edges ⟨e.val, he⟩ 1 (hin _)).symm
  · rfl

variable (m : (ℓ : Loc nD τ sig) → Buf (Elt Ideal) ℓ)

/-- Window 0's array (x at the first endpoints). -/
theorem V_xj (c : Dev nD) (hin : ∀ i, ((m ((c : Thread nD τ).loc main_arg2) : IVec SEdges 32) i).toNat < 100000)
    (r : Fin 48) (e : Fin 1203200) :
    (V m c main_v11 : FVec Ideal S48x1203200 .f32) (ix2 r e)
      = (m ((c : Thread nD τ).loc main_arg1) : FVec Ideal SV .f32)
          (ix3 ⟨r.val % 16, Nat.mod_lt _ (by decide)⟩ (vtxPad (m ((c : Thread nD τ).loc main_arg2)) e 0) ⟨r.val / 16, by have := r.isLt; omega⟩) := by
  rw [V_v11_term m c, winArr_apply _ _ (col0_lt _ hin) r e, col0_vtx _ hin e]

/-- Window 1's array (x at the second endpoints). -/
theorem V_xk (c : Dev nD) (hin : ∀ i, ((m ((c : Thread nD τ).loc main_arg2) : IVec SEdges 32) i).toNat < 100000)
    (r : Fin 48) (e : Fin 1203200) :
    (V m c main_v12 : FVec Ideal S48x1203200 .f32) (ix2 r e)
      = (m ((c : Thread nD τ).loc main_arg1) : FVec Ideal SV .f32)
          (ix3 ⟨r.val % 16, Nat.mod_lt _ (by decide)⟩ (vtxPad (m ((c : Thread nD τ).loc main_arg2)) e 1) ⟨r.val / 16, by have := r.isLt; omega⟩) := by
  rw [V_v12_term m c, winArr_apply _ _ (col1_lt _ hin) r e, col1_vtx _ hin e]

/-- Window 2's array (dx at the first endpoints). -/
theorem V_dxj (c : Dev nD) (hin : ∀ i, ((m ((c : Thread nD τ).loc main_arg2) : IVec SEdges 32) i).toNat < 100000)
    (r : Fin 48) (e : Fin 1203200) :
    (V m c main_v13 : FVec Ideal S48x1203200 .f32) (ix2 r e)
      = (m ((c : Thread nD τ).loc main_arg0) : FVec Ideal SV .f32)
          (ix3 ⟨r.val % 16, Nat.mod_lt _ (by decide)⟩ (vtxPad (m ((c : Thread nD τ).loc main_arg2)) e 0) ⟨r.val / 16, by have := r.isLt; omega⟩) := by
  rw [V_v13_term m c, winArr_apply _ _ (col0_lt _ hin) r e, col0_vtx _ hin e]

/-- Window 3's array (dx at the second endpoints). -/
theorem V_dxk (c : Dev nD) (hin : ∀ i, ((m ((c : Thread nD τ).loc main_arg2) : IVec SEdges 32) i).toNat < 100000)
    (r : Fin 48) (e : Fin 1203200) :
    (V m c main_v14 : FVec Ideal S48x1203200 .f32) (ix2 r e)
      = (m ((c : Thread nD τ).loc main_arg0) : FVec Ideal SV .f32)
          (ix3 ⟨r.val % 16, Nat.mod_lt _ (by decide)⟩ (vtxPad (m ((c : Thread nD τ).loc main_arg2)) e 1) ⟨r.val / 16, by have := r.isLt; omega⟩) := by
  rw [V_v14_term m c, winArr_apply _ _ (col1_lt _ hin) r e, col1_vtx _ hin e]

end Cert.KernelIdeal.HostValue

end
-- ==== Proof.KernelBlocks.lean ====
/-
  The lane sums of a block are sums of loss terms over the padded edge list.

  At grid point t every input window's block is columns [12800 t, 12800 (t + 1)) of its array, all 48
  rows; entry (16 c + q, l) of the four blocks is coordinate c of batch element q of x or dx at an
  endpoint of padded edge 12800 t + l. So lane l's term at batch element q is the loss term of that
  padded edge, and the block's lane sum is the sum of those terms.
-/
import proofs.«415139_j7052336300349_3_alg».proof.Proof.KernelHalves
import proofs.«415139_j7052336300349_3_alg».proof.Proof.HostGather

noncomputable section

namespace Cert.KernelIdeal.BodyValue

open Idealize.ShloMosaic Idealize.ShloMosaic.TcCoe Idealize.SL.Sem Idealize.ShloMosaic.ValueIdx
open Cert.KernelIdeal Cert.KernelIdeal.Gen Cert.KernelIdeal.HostValue Cert.Arap

/-- At point t each input window's block index is (0, t). -/
theorem idx_in0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_in1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_in2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx_in3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

/-- The padded edge in lane l of block t. -/
abbrev edgeOf (t : Fin cfg0.N) (l : Fin 12800) : Fin 1203200 :=
  ⟨t.val * 12800 + l.val, by have := t.isLt; have hN : cfg0.N = 94 := N_0; have := l.isLt; omega⟩

/-- Entry (r, l) of window w's block at point t sits at (r, 12800 t + l) of its array. -/
theorem emb0 (t : Fin cfg0.N) (r : Fin 48) (l : Fin 12800) :
    ((cfg0.win 0).blk t).view.emb (ix2 r l) = (ix2 r (edgeOf t l) : S48x1203200.Idx) := by
  funext a
  apply Fin.ext
  match a with
  | ⟨0, _⟩ => show win0_0.index t 0 * 48 + 1 * r.val = r.val; rw [(idx_in0 t).1]; omega
  | ⟨1, _⟩ => show win0_0.index t 1 * 12800 + 1 * l.val = t.val * 12800 + l.val; rw [(idx_in0 t).2]; omega
theorem emb1 (t : Fin cfg0.N) (r : Fin 48) (l : Fin 12800) :
    ((cfg0.win 1).blk t).view.emb (ix2 r l) = (ix2 r (edgeOf t l) : S48x1203200.Idx) := by
  funext a
  apply Fin.ext
  match a with
  | ⟨0, _⟩ => show win0_1.index t 0 * 48 + 1 * r.val = r.val; rw [(idx_in1 t).1]; omega
  | ⟨1, _⟩ => show win0_1.index t 1 * 12800 + 1 * l.val = t.val * 12800 + l.val; rw [(idx_in1 t).2]; omega
theorem emb2 (t : Fin cfg0.N) (r : Fin 48) (l : Fin 12800) :
    ((cfg0.win 2).blk t).view.emb (ix2 r l) = (ix2 r (edgeOf t l) : S48x1203200.Idx) := by
  funext a
  apply Fin.ext
  match a with
  | ⟨0, _⟩ => show win0_2.index t 0 * 48 + 1 * r.val = r.val; rw [(idx_in2 t).1]; omega
  | ⟨1, _⟩ => show win0_2.index t 1 * 12800 + 1 * l.val = t.val * 12800 + l.val; rw [(idx_in2 t).2]; omega
theorem emb3 (t : Fin cfg0.N) (r : Fin 48) (l : Fin 12800) :
    ((cfg0.win 3).blk t).view.emb (ix2 r l) = (ix2 r (edgeOf t l) : S48x1203200.Idx) := by
  funext a
  apply Fin.ext
  match a with
  | ⟨0, _⟩ => show win0_3.index t 0 * 48 + 1 * r.val = r.val; rw [(idx_in3 t).1]; omega
  | ⟨1, _⟩ => show win0_3.index t 1 * 12800 + 1 * l.val = t.val * 12800 + l.val; rw [(idx_in3 t).2]; omega

/-- A block of any array of the windows' shape, read at (r, l). -/
theorem read_blk0 (t : Fin cfg0.N) (X : FVec Ideal S48x1203200 .f32) (r : Fin 48) (l : Fin 12800) :
    ((cfg0.win 0).blk t).view.read (Elt Ideal) X (ix2 r l) = X (ix2 r (edgeOf t l)) := by
  rw [View.read_apply]; exact congrArg X (emb0 t r l)
theorem read_blk1 (t : Fin cfg0.N) (X : FVec Ideal S48x1203200 .f32) (r : Fin 48) (l : Fin 12800) :
    ((cfg0.win 1).blk t).view.read (Elt Ideal) X (ix2 r l) = X (ix2 r (edgeOf t l)) := by
  rw [View.read_apply]; exact congrArg X (emb1 t r l)
theorem read_blk2 (t : Fin cfg0.N) (X : FVec Ideal S48x1203200 .f32) (r : Fin 48) (l : Fin 12800) :
    ((cfg0.win 2).blk t).view.read (Elt Ideal) X (ix2 r l) = X (ix2 r (edgeOf t l)) := by
  rw [View.read_apply]; exact congrArg X (emb2 t r l)
theorem read_blk3 (t : Fin cfg0.N) (X : FVec Ideal S48x1203200 .f32) (r : Fin 48) (l : Fin 12800) :
    ((cfg0.win 3).blk t).view.read (Elt Ideal) X (ix2 r l) = X (ix2 r (edgeOf t l)) := by
  rw [View.read_apply]; exact congrArg X (emb3 t r l)

variable (m : (ℓ : Loc nD τ sig) → Buf (Elt Ideal) ℓ)

/-- The four windows' arrays as the region finds them, at their literal type. -/
abbrev arrXj (c : Dev nD) : FVec Ideal S48x1203200 .f32 := V m c main_v11
abbrev arrXk (c : Dev nD) : FVec Ideal S48x1203200 .f32 := V m c main_v12
abbrev arrDxj (c : Dev nD) : FVec Ideal S48x1203200 .f32 := V m c main_v13
abbrev arrDxk (c : Dev nD) : FVec Ideal S48x1203200 .f32 := V m c main_v14

theorem blkXj_def (c : Dev nD) (t : Fin cfg0.N) : blkXj m c t = ((cfg0.win 0).blk t).view.read (Elt Ideal) (arrXj m c) := rfl
theorem blkXk_def (c : Dev nD) (t : Fin cfg0.N) : blkXk m c t = ((cfg0.win 1).blk t).view.read (Elt Ideal) (arrXk m c) := rfl
theorem blkDxj_def (c : Dev nD) (t : Fin cfg0.N) : blkDxj m c t = ((cfg0.win 2).blk t).view.read (Elt Ideal) (arrDxj m c) := rfl
theorem blkDxk_def (c : Dev nD) (t : Fin cfg0.N) : blkDxk m c t = ((cfg0.win 3).blk t).view.read (Elt Ideal) (arrDxk m c) := rfl

/-! ## The blocks' entries are the vertex arrays at the padded edges' endpoints -/

theorem xj_entry (c : Dev nD) (hin : ∀ i, ((m ((c : Thread nD τ).loc main_arg2) : IVec SEdges 32) i).toNat < 100000)
    (t : Fin cfg0.N) (comp : Fin 3) (q : Fin 16) (l : Fin 12800) (r : Fin 48) (hr : r.val = 16 * comp.val + q.val) :
    blkXj m c t (ix2 r l)
      = (m ((c : Thread nD τ).loc main_arg1) : FVec Ideal SV .f32) (ix3 q (vtxPad (m ((c : Thread nD τ).loc main_arg2)) (edgeOf t l) 0) comp) :=
  (congrFun (blkXj_def m c t) (ix2 r l)).trans ((read_blk0 t (arrXj m c) r l).trans ((V_xj m c hin r (edgeOf t l)).trans (by
    have e1 : (⟨r.val % 16, Nat.mod_lt _ (by decide)⟩ : Fin 16) = q :=
      Fin.ext (by show r.val % 16 = q.val; have := q.isLt; have := comp.isLt; omega)
    have e2 : (⟨r.val / 16, by have := r.isLt; omega⟩ : Fin 3) = comp :=
      Fin.ext (by show r.val / 16 = comp.val; have := q.isLt; have := comp.isLt; omega)
    rw [e1, e2])))

theorem xk_entry (c : Dev nD) (hin : ∀ i, ((m ((c : Thread nD τ).loc main_arg2) : IVec SEdges 32) i).toNat < 100000)
    (t : Fin cfg0.N) (comp : Fin 3) (q : Fin 16) (l : Fin 12800) (r : Fin 48) (hr : r.val = 16 * comp.val + q.val) :
    blkXk m c t (ix2 r l)
      = (m ((c : Thread nD τ).loc main_arg1) : FVec Ideal SV .f32) (ix3 q (vtxPad (m ((c : Thread nD τ).loc main_arg2)) (edgeOf t l) 1) comp) :=
  (congrFun (blkXk_def m c t) (ix2 r l)).trans ((read_blk1 t (arrXk m c) r l).trans ((V_xk m c hin r (edgeOf t l)).trans (by
    have e1 : (⟨r.val % 16, Nat.mod_lt _ (by decide)⟩ : Fin 16) = q :=
      Fin.ext (by show r.val % 16 = q.val; have := q.isLt; have := comp.isLt; omega)
    have e2 : (⟨r.val / 16, by have := r.isLt; omega⟩ : Fin 3) = comp :=
      Fin.ext (by show r.val / 16 = comp.val; have := q.isLt; have := comp.isLt; omega)
    rw [e1, e2])))

theorem dxj_entry (c : Dev nD) (hin : ∀ i, ((m ((c : Thread nD τ).loc main_arg2) : IVec SEdges 32) i).toNat < 100000)
    (t : Fin cfg0.N) (comp : Fin 3) (q : Fin 16) (l : Fin 12800) (r : Fin 48) (hr : r.val = 16 * comp.val + q.val) :
    blkDxj m c t (ix2 r l)
      = (m ((c : Thread nD τ).loc main_arg0) : FVec Ideal SV .f32) (ix3 q (vtxPad (m ((c : Thread nD τ).loc main_arg2)) (edgeOf t l) 0) comp) :=
  (congrFun (blkDxj_def m c t) (ix2 r l)).trans ((read_blk2 t (arrDxj m c) r l).trans ((V_dxj m c hin r (edgeOf t l)).trans (by
    have e1 : (⟨r.val % 16, Nat.mod_lt _ (by decide)⟩ : Fin 16) = q :=
      Fin.ext (by show r.val % 16 = q.val; have := q.isLt; have := comp.isLt; omega)
    have e2 : (⟨r.val / 16, by have := r.isLt; omega⟩ : Fin 3) = comp :=
      Fin.ext (by show r.val / 16 = comp.val; have := q.isLt; have := comp.isLt; omega)
    rw [e1, e2])))

theorem dxk_entry (c : Dev nD) (hin : ∀ i, ((m ((c : Thread nD τ).loc main_arg2) : IVec SEdges 32) i).toNat < 100000)
    (t : Fin cfg0.N) (comp : Fin 3) (q : Fin 16) (l : Fin 12800) (r : Fin 48) (hr : r.val = 16 * comp.val + q.val) :
    blkDxk m c t (ix2 r l)
      = (m ((c : Thread nD τ).loc main_arg0) : FVec Ideal SV .f32) (ix3 q (vtxPad (m ((c : Thread nD τ).loc main_arg2)) (edgeOf t l) 1) comp) :=
  (congrFun (blkDxk_def m c t) (ix2 r l)).trans ((read_blk3 t (arrDxk m c) r l).trans ((V_dxk m c hin r (edgeOf t l)).trans (by
    have e1 : (⟨r.val % 16, Nat.mod_lt _ (by decide)⟩ : Fin 16) = q :=
      Fin.ext (by show r.val % 16 = q.val; have := q.isLt; have := comp.isLt; omega)
    have e2 : (⟨r.val / 16, by have := r.isLt; omega⟩ : Fin 3) = comp :=
      Fin.ext (by show r.val / 16 = comp.val; have := q.isLt; have := comp.isLt; omega)
    rw [e1, e2])))

/-- The lane sums of block n are the loss terms of the 12800 padded edges of the block, summed. -/
theorem laneSum_eq (c : Dev nD) (hin : ∀ i, ((m ((c : Thread nD τ).loc main_arg2) : IVec SEdges 32) i).toNat < 100000)
    (n : ℕ) (h : n < cfg0.N) (q : Fin 16) :
    laneSum m c n h q
      = ∑ l : Fin 12800, termPad (m ((c : Thread nD τ).loc main_arg1)) (m ((c : Thread nD τ).loc main_arg0))
          (m ((c : Thread nD τ).loc main_arg2)) q (edgeOf ⟨n, h⟩ l) := by
  unfold laneSum
  refine Finset.sum_congr rfl fun l _ => ?_
  unfold laneTerm termPad term sqDist
  have a0 := xj_entry m c hin ⟨n, h⟩ 0 q l ⟨q.val, by omega⟩ (by show q.val = 16 * 0 + q.val; omega)
  have a1 := xj_entry m c hin ⟨n, h⟩ 1 q l ⟨16 + q.val, by omega⟩ (by show 16 + q.val = 16 * 1 + q.val; omega)
  have a2 := xj_entry m c hin ⟨n, h⟩ 2 q l ⟨32 + q.val, by omega⟩ (by show 32 + q.val = 16 * 2 + q.val; omega)
  have b0 := xk_entry m c hin ⟨n, h⟩ 0 q l ⟨q.val, by omega⟩ (by show q.val = 16 * 0 + q.val; omega)
  have b1 := xk_entry m c hin ⟨n, h⟩ 1 q l ⟨16 + q.val, by omega⟩ (by show 16 + q.val = 16 * 1 + q.val; omega)
  have b2 := xk_entry m c hin ⟨n, h⟩ 2 q l ⟨32 + q.val, by omega⟩ (by show 32 + q.val = 16 * 2 + q.val; omega)
  have d0 := dxj_entry m c hin ⟨n, h⟩ 0 q l ⟨q.val, by omega⟩ (by show q.val = 16 * 0 + q.val; omega)
  have d1 := dxj_entry m c hin ⟨n, h⟩ 1 q l ⟨16 + q.val, by omega⟩ (by show 16 + q.val = 16 * 1 + q.val; omega)
  have d2 := dxj_entry m c hin ⟨n, h⟩ 2 q l ⟨32 + q.val, by omega⟩ (by show 32 + q.val = 16 * 2 + q.val; omega)
  have e0 := dxk_entry m c hin ⟨n, h⟩ 0 q l ⟨q.val, by omega⟩ (by show q.val = 16 * 0 + q.val; omega)
  have e1 := dxk_entry m c hin ⟨n, h⟩ 1 q l ⟨16 + q.val, by omega⟩ (by show 16 + q.val = 16 * 1 + q.val; omega)
  have e2 := dxk_entry m c hin ⟨n, h⟩ 2 q l ⟨32 + q.val, by omega⟩ (by show 32 + q.val = 16 * 2 + q.val; omega)
  rw [a0, a1, a2, b0, b1, b2, d0, d1, d2, e0, e1, e2]

end Cert.KernelIdeal.BodyValue

end
-- ==== Proof.BlockSums.lean ====
/-
  Regrouping a sum over the padded edge list (94 blocks of 12800) into the sum over the real edges.

  The padded list has 1203200 = 2 · 47 · 12800 entries; the first 1199919 are the edges and the rest
  contribute zero. Each of the two halves of the grid sums its 47 blocks and scales its own partial
  sum by the same non-negative constant; because every term is non-negative the scaling distributes
  over the sum of the two halves on the extended reals.
-/
import Mathlib.Data.EReal.Basic
import Mathlib.Data.EReal.Operations
import Mathlib.Algebra.BigOperators.Fin
import Mathlib.Algebra.BigOperators.Intervals
import Mathlib.Algebra.Order.BigOperators.Group.Finset

noncomputable section

namespace Cert.Arap

open scoped BigOperators

/-- A sum over the first `k * L` naturals, read block by block: block `i` holds the indices
    `i * L + l` for `l < L`. -/
theorem sum_range_blocks (f : ℕ → EReal) (L k : ℕ) :
    ∑ n ∈ Finset.range (k * L), f n
      = ∑ i ∈ Finset.range k, ∑ l ∈ Finset.range L, f (i * L + l) := by
  induction k with
  | zero => simp
  | succ k ih =>
    rw [Nat.succ_mul, Finset.sum_range_add, ih, Finset.sum_range_succ]

/-- The two scaled half sums over blocks are the scaled sum over the edges. -/
theorem scaled_halves_eq (T : Fin 1203200 → EReal) (hT : ∀ e, 0 ≤ T e)
    (hpad : ∀ e : Fin 1203200, 1199919 ≤ e.val → T e = 0) (c : EReal) (hc : 0 ≤ c) :
    (∑ i : Fin 47, ∑ l : Fin 12800, T ⟨i.val * 12800 + l.val, by have := i.isLt; have := l.isLt; omega⟩) * c
      + (∑ i : Fin 47, ∑ l : Fin 12800, T ⟨(47 + i.val) * 12800 + l.val, by have := i.isLt; have := l.isLt; omega⟩) * c
      = (∑ e : Fin 1199919, T ⟨e.val, by have := e.isLt; omega⟩) * c := by
  -- Extend T by zero to all naturals, so that every sum becomes a sum over an initial segment of ℕ.
  let f : ℕ → EReal := fun n => if h : n < 1203200 then T ⟨n, h⟩ else 0
  have hfT : ∀ (n : ℕ) (h : n < 1203200), T ⟨n, h⟩ = f n := by
    intro n h
    show T ⟨n, h⟩ = if h' : n < 1203200 then T ⟨n, h'⟩ else 0
    rw [dif_pos h]
  have hf0 : ∀ n : ℕ, 1199919 ≤ n → f n = 0 := by
    intro n hn
    by_cases h : n < 1203200
    · rw [← hfT n h]; exact hpad ⟨n, h⟩ hn
    · show (if h' : n < 1203200 then T ⟨n, h'⟩ else 0) = 0
      rw [dif_neg h]
  -- The first half: blocks 0 … 46.
  have hA : (∑ i : Fin 47, ∑ l : Fin 12800,
        T ⟨i.val * 12800 + l.val, by have := i.isLt; have := l.isLt; omega⟩)
      = ∑ i ∈ Finset.range 47, ∑ l ∈ Finset.range 12800, f (i * 12800 + l) := by
    rw [← Fin.sum_univ_eq_sum_range (fun i => ∑ l ∈ Finset.range 12800, f (i * 12800 + l)) 47]
    refine Finset.sum_congr rfl (fun i _ => ?_)
    rw [← Fin.sum_univ_eq_sum_range (fun l => f (i.val * 12800 + l)) 12800]
    exact Finset.sum_congr rfl (fun l _ => hfT _ _)
  -- The second half: blocks 47 … 93.
  have hB : (∑ i : Fin 47, ∑ l : Fin 12800,
        T ⟨(47 + i.val) * 12800 + l.val, by have := i.isLt; have := l.isLt; omega⟩)
      = ∑ i ∈ Finset.range 47, ∑ l ∈ Finset.range 12800, f ((47 + i) * 12800 + l) := by
    rw [← Fin.sum_univ_eq_sum_range (fun i => ∑ l ∈ Finset.range 12800, f ((47 + i) * 12800 + l)) 47]
    refine Finset.sum_congr rfl (fun i _ => ?_)
    rw [← Fin.sum_univ_eq_sum_range (fun l => f ((47 + i.val) * 12800 + l)) 12800]
    exact Finset.sum_congr rfl (fun l _ => hfT _ _)
  -- The real edges.
  have hS : (∑ e : Fin 1199919, T ⟨e.val, by have := e.isLt; omega⟩)
      = ∑ n ∈ Finset.range 1199919, f n := by
    rw [← Fin.sum_univ_eq_sum_range f 1199919]
    exact Finset.sum_congr rfl (fun e _ => hfT _ _)
  -- The two halves together enumerate every index below 94 · 12800 exactly once.
  have hAB : (∑ i ∈ Finset.range 47, ∑ l ∈ Finset.range 12800, f (i * 12800 + l))
      + (∑ i ∈ Finset.range 47, ∑ l ∈ Finset.range 12800, f ((47 + i) * 12800 + l))
      = ∑ n ∈ Finset.range (47 * 12800 + 47 * 12800), f n := by
    have h2 : ∑ x ∈ Finset.range (47 * 12800), f (47 * 12800 + x)
        = ∑ i ∈ Finset.range 47, ∑ l ∈ Finset.range 12800, f ((47 + i) * 12800 + l) := by
      rw [sum_range_blocks (fun x => f (47 * 12800 + x)) 12800 47]
      refine Finset.sum_congr rfl (fun i _ => Finset.sum_congr rfl (fun l _ => ?_))
      exact congrArg f (by omega)
    rw [Finset.sum_range_add, sum_range_blocks f 12800 47, h2]
  -- The indices from 1199919 on contribute nothing.
  have hTail : ∑ n ∈ Finset.range (1199919 + 3281), f n = ∑ n ∈ Finset.range 1199919, f n := by
    rw [Finset.sum_range_add, Finset.sum_eq_zero (fun x _ => hf0 (1199919 + x) (Nat.le_add_right _ _)),
      add_zero]
  have hN : 47 * 12800 + 47 * 12800 = 1199919 + 3281 := by norm_num
  -- Both half sums are non-negative, so the scaling distributes over their sum.
  have hA0 : 0 ≤ ∑ i ∈ Finset.range 47, ∑ l ∈ Finset.range 12800, f (i * 12800 + l) := by
    rw [← hA]; exact Finset.sum_nonneg (fun i _ => Finset.sum_nonneg (fun l _ => hT _))
  have hB0 : 0 ≤ ∑ i ∈ Finset.range 47, ∑ l ∈ Finset.range 12800, f ((47 + i) * 12800 + l) := by
    rw [← hB]; exact Finset.sum_nonneg (fun i _ => Finset.sum_nonneg (fun l _ => hT _))
  rw [hA, hB, hS, ← EReal.right_distrib_of_nonneg hA0 hB0, hAB, hN, hTail]

end Cert.Arap

end
-- ==== Proof.KernelValue.lean ====
/-
  The kernel's result at a batch element is the scaled sum of the loss terms over the edges.

  Entry b of the result is row 0 of the first half's block plus row 0 of the second half's, that is
  (Σ over blocks 0..46 of the block sums) · (1/1199919) + (Σ over blocks 47..93) · (1/1199919); each block
  sum is the sum of the loss terms of the block's 12800 padded edges; the padding edges are degenerate and
  contribute zero for finite vertices; every term is non-negative, so the scaling distributes.
-/
import proofs.«415139_j7052336300349_3_alg».proof.Proof.KernelRun
import proofs.«415139_j7052336300349_3_alg».proof.Proof.KernelBlocks
import proofs.«415139_j7052336300349_3_alg».proof.Proof.BlockSums

noncomputable section

namespace Cert.KernelIdeal.BodyValue

open Idealize.ShloMosaic Idealize.ShloMosaic.TcCoe Idealize.SL.Sem Idealize.ShloMosaic.ValueIdx
open Cert.KernelIdeal Cert.KernelIdeal.Gen Cert.Arap

/-- A padded edge below 1199919 is the edge itself; from there on it is the degenerate edge (0, 0). -/
theorem vtxPad_of_lt (edges : IVec SEdges 32) (e : Fin 1203200) (s : Fin 2) (h : e.val < 1199919) :
    vtxPad edges e s = vtx edges ⟨e.val, h⟩ s := by
  unfold vtxPad; exact dif_pos h
theorem vtxPad_of_ge (edges : IVec SEdges 32) (e : Fin 1203200) (s : Fin 2) (h : ¬e.val < 1199919) :
    vtxPad edges e s = ⟨0, by decide⟩ := by
  unfold vtxPad; exact dif_neg h

variable (m : (ℓ : Loc nD τ sig) → Buf (Elt Ideal) ℓ)

/-- Row 0 at the end of half κ, as a sum over the half's 47 blocks of the loss terms of their padded edges. -/
theorem half_eq (c : Dev nD) (hin : ∀ i, ((m ((c : Thread nD τ).loc main_arg2) : IVec SEdges 32) i).toNat < 100000)
    (κ : ℕ) (hκ : κ < 2) (h : 47 * κ + 46 < cfg0.N) (q : Fin 16) :
    rowAt m c (47 * κ + 46) h q
      = (∑ i : Fin 47, ∑ l : Fin 12800,
          termPad (m ((c : Thread nD τ).loc main_arg1)) (m ((c : Thread nD τ).loc main_arg0)) (m ((c : Thread nD τ).loc main_arg2)) q
            ⟨(47 * κ + i.val) * 12800 + l.val, by have := i.isLt; have := l.isLt; omega⟩) * invE := by
  have hN : cfg0.N = 94 := N_0
  rw [rowAt_half m c q κ hκ h, Finset.sum_range]
  refine congrArg (· * _) (Finset.sum_congr rfl fun i _ => ?_)
  have hi : 47 * κ + i.val < cfg0.N := by have := i.isLt; omega
  rw [blockSum_of_lt m c q _ hi, laneSum_eq m c hin _ hi q]

/-- THE KERNEL'S VALUE: entry b of the result. -/
theorem kernel_value (c : Dev nD) (hin : ∀ i, ((m ((c : Thread nD τ).loc main_arg2) : IVec SEdges 32) i).toNat < 100000)
    (hx : ∀ i, ∃ r : ℝ, (m ((c : Thread nD τ).loc main_arg1) : FVec Ideal SV .f32) i = (r : EReal))
    (hdx : ∀ i, ∃ r : ℝ, (m ((c : Thread nD τ).loc main_arg0) : FVec Ideal SV .f32) i = (r : EReal)) (b : Fin 16) :
    tailOf (arrOut m c) (ix1 b)
      = (∑ e : Fin 1199919, term (m ((c : Thread nD τ).loc main_arg1)) (m ((c : Thread nD τ).loc main_arg0)) b
          (vtx (m ((c : Thread nD τ).loc main_arg2)) e 0) (vtx (m ((c : Thread nD τ).loc main_arg2)) e 1)) * invE := by
  have hN : cfg0.N = 94 := N_0
  have h0 : 47 * 0 + 46 < cfg0.N := by omega
  have h1 : 47 * 1 + 46 < cfg0.N := by omega
  rw [tailOf_apply]
  have r0 : arrOut m c (ix2 (⟨0, by decide⟩ : Fin 16) b) = rowAt m c (47 * 0 + 46) h0 b := arr_row m c 0 (by decide) h0 b
  have r1 : arrOut m c (ix2 (⟨8, by decide⟩ : Fin 16) b) = rowAt m c (47 * 1 + 46) h1 b := arr_row m c 1 (by decide) h1 b
  rw [r0, r1, half_eq m c hin 0 (by decide) h0 b, half_eq m c hin 1 (by decide) h1 b]
  have key := scaled_halves_eq
    (termPad (m ((c : Thread nD τ).loc main_arg1)) (m ((c : Thread nD τ).loc main_arg0)) (m ((c : Thread nD τ).loc main_arg2)) b)
    (fun e => term_nonneg _ _ _ _ _)
    (fun e he => by
      have hlt : ¬e.val < 1199919 := by omega
      exact (congrArg₂ (term _ _ b) (vtxPad_of_ge _ e 0 hlt) (vtxPad_of_ge _ e 1 hlt)).trans (term_self _ _ hx hdx b _))
    invE (EReal.coe_nonneg.mpr (by norm_num))
  refine Eq.trans ?_ (key.trans ?_)
  · refine congrArg₂ (· + ·) (congrArg (· * _) ?_) (congrArg (· * _) ?_)
    · exact Finset.sum_congr rfl fun i _ => Finset.sum_congr rfl fun l _ => congrArg _ (Fin.ext (by show (47 * 0 + i.val) * 12800 + l.val = i.val * 12800 + l.val; omega))
    · exact Finset.sum_congr rfl fun i _ => Finset.sum_congr rfl fun l _ => congrArg _ (Fin.ext (by show (47 * 1 + i.val) * 12800 + l.val = (47 + i.val) * 12800 + l.val; omega))
  · refine congrArg (· * invE) (Fintype.sum_congr _ _ fun e => ?_)
    have hlt : (⟨e.val, by have := e.isLt; omega⟩ : Fin 1203200).val < 1199919 := e.isLt
    exact congrArg₂ (term _ _ b) (vtxPad_of_lt _ _ 0 hlt) (vtxPad_of_lt _ _ 1 hlt)

end Cert.KernelIdeal.BodyValue

end
-- ==== Proof.RefValue.lean ====
/-
  The reference's result read at a batch element: the sum over the edges of the loss term, scaled by
  the reciprocal of the number of edges. Each of its four gathers reads a vertex array at the clamped
  vertex word (the wrap of a negative word never applies to a word in range).
-/
import proofs.«415139_j7052336300349_3_alg».proof.Proof.Gen.ReferenceIdeal.Read
import proofs.«415139_j7052336300349_3_alg».proof.Proof.EdgeTerm
import Idealize.ShloMosaic.Lib.StableHlo.Predicate
import Idealize.ShloMosaic.PureOps.Ideal.Laws

noncomputable section

namespace Cert.Arap

open Idealize.ShloMosaic Idealize.ShloMosaic.ValueIdx
open Cert.ReferenceIdeal Cert.ReferenceIdeal.Gen

/-- This program's gather: operand [16, 100000, 3], one start-index column [1199919, 1], result [16, 1199919, 3];
    the batch and coordinate axes are offset axes, the vertex axis is collapsed and indexed. -/
private abbrev gd [Cert.ReferenceIdeal.Facts₀] := gather_S16x100000x3_S1199919x1_S16x1199919x3_02_1_n_n_1_1_1613

/-- The gather read at (b, e, i): the operand at batch element `b`, coordinate `i`, and the vertex that edge `e`'s
    start index names, read signed and clamped into the vertex range. -/
private theorem gather_vertex [Cert.ReferenceIdeal.Facts₀] {α : Type} {w : Nat} (x : S16x100000x3.Idx → α) (idx : IVec S1199919x1 w)
    (b : Fin 16) (e : Fin 1199919) (i : Fin 3) (v : Fin 100000)
    (hv : v.val = min (idx (ix2 e 0)).toInt.toNat 99999) :
    Host.gather gd x idx (ix3 b e i) = x (ix3 b v i) := by
  unfold Host.gather
  congr 1
  funext a
  refine Fin.ext ?_
  have hnb : ∀ a : Fin S16x100000x3.rank, a ∉ gd.operandBatchingDims := fun _ => List.not_mem_nil
  match a with
  | ⟨0, _⟩ =>
    show gd.start (ix3 b e i) idx 0 + gd.batchCoord (ix3 b e i) 0 + gd.offCoord (ix3 b e i) 0 = b.val
    rw [GatherDims.batchCoord_eq_zero _ _ _ (hnb _)]
    have hs : gd.start (ix3 b e i) idx 0 = 0 := by
      unfold GatherDims.start
      rw [dif_neg (show (0 : Fin S16x100000x3.rank) ∉ gd.startIndexMap from
        (show ¬ ((0 : Fin 3) ∈ ([1] : List (Fin 3))) by decide))]
    have ho : gd.offCoord (ix3 b e i) 0 = b.val := by
      unfold GatherDims.offCoord
      rw [dif_pos ((GatherDims.mem_sKept _ _).mpr ⟨show ¬ ((0 : Fin 3) ∈ ([1] : List (Fin 3))) by decide, hnb _⟩)]
      rfl
    simp only [hs, ho, Nat.zero_add]
  | ⟨1, _⟩ =>
    show gd.start (ix3 b e i) idx 1 + gd.batchCoord (ix3 b e i) 1 + gd.offCoord (ix3 b e i) 1 = v.val
    rw [GatherDims.batchCoord_eq_zero _ _ _ (hnb _),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 b e i) ⟨List.idxOf (1 : Fin 3) gd.startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    exact hv.symm
  | ⟨2, _⟩ =>
    show gd.start (ix3 b e i) idx 2 + gd.batchCoord (ix3 b e i) 2 + gd.offCoord (ix3 b e i) 2 = i.val
    rw [GatherDims.batchCoord_eq_zero _ _ _ (hnb _)]
    have hs : gd.start (ix3 b e i) idx 2 = 0 := by
      unfold GatherDims.start
      rw [dif_neg (show (2 : Fin S16x100000x3.rank) ∉ gd.startIndexMap from
        (show ¬ ((2 : Fin 3) ∈ ([1] : List (Fin 3))) by decide))]
    have ho : gd.offCoord (ix3 b e i) 2 = i.val := by
      unfold GatherDims.offCoord
      rw [dif_pos ((GatherDims.mem_sKept _ _).mpr ⟨show ¬ ((2 : Fin 3) ∈ ([1] : List (Fin 3))) by decide, hnb _⟩)]
      rfl
    simp only [hs, ho, Nat.zero_add]

/-- A vertex word in range is not negative, so the wrap by the number of vertices never applies to it. -/
private theorem wrap_in_range (w : BitVec 32) (h : w.toNat < 100000) :
    Scalar.select (IntOp.cmpi .slt w 0#32) (IntOp.addi w 100000#32) w = w := by
  have hc : IntOp.cmpi .slt w 0#32 = 0#1 := by
    apply eq_zero_of_ne_one
    intro h1
    have h2 := (StableHlo.Predicate.slt_iff_toNat (a := w) (b := 0#32) (by omega) (by decide)).mp h1
    simp at h2
  rw [hc, select_zero]

/-- The divisor the reference spells, 1199919.0, denotes the real 1199919. -/
private theorem ofBits_numEdges : Ideal.ofBits .f32 0x49927978#32 = ((1199919 : ℝ) : EReal) := by
  simp [Ideal.ofBits, Ideal.ieee, -EReal.coe_mul]; norm_num

section
variable [Cert.ReferenceIdeal.Facts]
open Cert.ReferenceIdeal.Read

/-- The column of second endpoints, read at edge `e`. -/
private theorem v3_at (x2 : IVec SEdges 32) (e : Fin 1199919) :
    val_main_v3 (F := Ideal) x2 (ix1 e) = x2 (ix2 e 1) := by
  rw [val_main_v3_apply, val_main_v2_apply]
  refine congrArg x2 (funext fun a => ?_)
  match a with
  | ⟨0, _⟩ => exact Fin.ext (Nat.div_one _)
  | ⟨1, _⟩ => rfl

/-- The column of first endpoints, read at edge `e`. -/
private theorem v1_at (x2 : IVec SEdges 32) (e : Fin 1199919) :
    val_main_v1 (F := Ideal) x2 (ix1 e) = x2 (ix2 e 0) := by
  rw [val_main_v1_apply, val_main_v0_apply]
  refine congrArg x2 (funext fun a => ?_)
  match a with
  | ⟨0, _⟩ => exact Fin.ext (Nat.div_one _)
  | ⟨1, _⟩ => rfl

/-- The four start-index columns: each is an endpoint column with the wrap of a negative word applied, which
    leaves a word in range as it is. -/
private theorem v9_at (x2 : IVec SEdges 32) (hin : ∀ i, (x2 i).toNat < 100000) (e : Fin 1199919) :
    val_main_v9 (F := Ideal) x2 (ix2 e 0) = x2 (ix2 e 1) := by
  rw [val_main_v9_apply]
  show val_main_v8 (F := Ideal) x2 (ix1 e) = _
  rw [val_main_v8_apply, val_main_v5_apply, val_main_v7_apply, val_main_v4_apply, val_main_v6_apply,
    val_main_c_apply, val_main_c_0_apply, v3_at]
  exact wrap_in_range _ (hin _)

private theorem v16_at (x2 : IVec SEdges 32) (hin : ∀ i, (x2 i).toNat < 100000) (e : Fin 1199919) :
    val_main_v16 (F := Ideal) x2 (ix2 e 0) = x2 (ix2 e 0) := by
  rw [val_main_v16_apply]
  show val_main_v15 (F := Ideal) x2 (ix1 e) = _
  rw [val_main_v15_apply, val_main_v12_apply, val_main_v14_apply, val_main_v11_apply, val_main_v13_apply,
    val_main_c_1_apply, val_main_c_2_apply, v1_at]
  exact wrap_in_range _ (hin _)

private theorem v24_at (x2 : IVec SEdges 32) (hin : ∀ i, (x2 i).toNat < 100000) (e : Fin 1199919) :
    val_main_v24 (F := Ideal) x2 (ix2 e 0) = x2 (ix2 e 1) := by
  rw [val_main_v24_apply]
  show val_main_v23 (F := Ideal) x2 (ix1 e) = _
  rw [val_main_v23_apply, val_main_v20_apply, val_main_v22_apply, val_main_v19_apply, val_main_v21_apply,
    val_main_c_3_apply, val_main_c_4_apply, v3_at]
  exact wrap_in_range _ (hin _)

private theorem v31_at (x2 : IVec SEdges 32) (hin : ∀ i, (x2 i).toNat < 100000) (e : Fin 1199919) :
    val_main_v31 (F := Ideal) x2 (ix2 e 0) = x2 (ix2 e 0) := by
  rw [val_main_v31_apply]
  show val_main_v30 (F := Ideal) x2 (ix1 e) = _
  rw [val_main_v30_apply, val_main_v27_apply, val_main_v29_apply, val_main_v26_apply, val_main_v28_apply,
    val_main_c_5_apply, val_main_c_6_apply, v1_at]
  exact wrap_in_range _ (hin _)

/-- The difference of the two gathered vertices of x, one coordinate: x[b, k, i] − x[b, j, i] for edge e = (j, k). -/
private theorem v18_at (x1 : FVec Ideal SV .f32) (x2 : IVec SEdges 32) (hin : ∀ i, (x2 i).toNat < 100000)
    (b : Fin 16) (e : Fin 1199919) (i : Fin 3) :
    val_main_v18 (F := Ideal) x1 x2 (ix3 b e i) = x1 (ix3 b (vtx x2 e 1) i) - x1 (ix3 b (vtx x2 e 0) i) := by
  rw [val_main_v18_apply]
  have h10 : val_main_v10 (F := Ideal) x1 x2 (ix3 b e i) = x1 (ix3 b (vtx x2 e 1) i) := by
    unfold val_main_v10
    exact gather_vertex x1 _ b e i (vtx x2 e 1) (by rw [v9_at x2 hin e]; rfl)
  have h17 : val_main_v17 (F := Ideal) x1 x2 (ix3 b e i) = x1 (ix3 b (vtx x2 e 0) i) := by
    unfold val_main_v17
    exact gather_vertex x1 _ b e i (vtx x2 e 0) (by rw [v16_at x2 hin e]; rfl)
  rw [h10, h17]
  rfl

/-- The same of dx. -/
private theorem v33_at (x0 : FVec Ideal SV .f32) (x2 : IVec SEdges 32) (hin : ∀ i, (x2 i).toNat < 100000)
    (b : Fin 16) (e : Fin 1199919) (i : Fin 3) :
    val_main_v33 (F := Ideal) x0 x2 (ix3 b e i) = x0 (ix3 b (vtx x2 e 1) i) - x0 (ix3 b (vtx x2 e 0) i) := by
  rw [val_main_v33_apply]
  have h25 : val_main_v25 (F := Ideal) x0 x2 (ix3 b e i) = x0 (ix3 b (vtx x2 e 1) i) := by
    unfold val_main_v25
    exact gather_vertex x0 _ b e i (vtx x2 e 1) (by rw [v24_at x2 hin e]; rfl)
  have h32 : val_main_v32 (F := Ideal) x0 x2 (ix3 b e i) = x0 (ix3 b (vtx x2 e 0) i) := by
    unfold val_main_v32
    exact gather_vertex x0 _ b e i (vtx x2 e 0) (by rw [v31_at x2 hin e]; rfl)
  rw [h25, h32]
  rfl

/-- The index the sum over the three coordinates reads. -/
private theorem idx35_eq (b : Fin 16) (e : Fin 1199919) (k : Fin 3) : idx_main_v35 (ix2 b e) k = ix3 b e k := by
  funext a; match a with | ⟨0, _⟩ => rfl | ⟨1, _⟩ => rfl | ⟨2, _⟩ => rfl

private theorem idx37_eq (b : Fin 16) (e : Fin 1199919) (k : Fin 3) : idx_main_v37 (ix2 b e) k = ix3 b e k := by
  funext a; match a with | ⟨0, _⟩ => rfl | ⟨1, _⟩ => rfl | ⟨2, _⟩ => rfl

/-- The index the sum over the edges reads. -/
private theorem idx40_eq (b : Fin 16) (e : Fin 1199919) : idx_main_v40 (ix1 b) e = ix2 b e := by
  funext a; match a with | ⟨0, _⟩ => rfl | ⟨1, _⟩ => rfl

/-- The squared edge length of x at (b, e). -/
private theorem v35_at (x1 : FVec Ideal SV .f32) (x2 : IVec SEdges 32) (hin : ∀ i, (x2 i).toNat < 100000)
    (b : Fin 16) (e : Fin 1199919) :
    val_main_v35 (F := Ideal) x1 x2 (ix2 b e) = sqDist x1 b (vtx x2 e 0) (vtx x2 e 1) := by
  rw [val_main_v35_apply, val_main_cst_apply, Fin.sum_univ_three]
  simp only [idx35_eq, val_main_v34_apply, v18_at x1 x2 hin]
  show Ideal.ofBits .f32 0x00000000#32 + _ = _
  rw [Ideal.ofBits_zero_f32, zero_add]
  rfl

/-- The squared edge length of dx at (b, e). -/
private theorem v37_at (x0 : FVec Ideal SV .f32) (x2 : IVec SEdges 32) (hin : ∀ i, (x2 i).toNat < 100000)
    (b : Fin 16) (e : Fin 1199919) :
    val_main_v37 (F := Ideal) x0 x2 (ix2 b e) = sqDist x0 b (vtx x2 e 0) (vtx x2 e 1) := by
  rw [val_main_v37_apply, val_main_cst_7_apply, Fin.sum_univ_three]
  simp only [idx37_eq, val_main_v36_apply, v33_at x0 x2 hin]
  show Ideal.ofBits .f32 0x00000000#32 + _ = _
  rw [Ideal.ofBits_zero_f32, zero_add]
  rfl

/-- The loss term at (b, e). -/
private theorem v39_at (x0 x1 : FVec Ideal SV .f32) (x2 : IVec SEdges 32) (hin : ∀ i, (x2 i).toNat < 100000)
    (b : Fin 16) (e : Fin 1199919) :
    val_main_v39 (F := Ideal) x0 x1 x2 (ix2 b e) = term x1 x0 b (vtx x2 e 0) (vtx x2 e 1) := by
  rw [val_main_v39_apply, val_main_v38_apply, v35_at x1 x2 hin, v37_at x0 x2 hin]
  rfl

end

/-- The reference's last stage at batch element `b` (x0 is the array dx, x1 the array x, x2 the edge list). -/
theorem ref_value [Cert.ReferenceIdeal.Facts] (x0 x1 : FVec Ideal SV .f32) (x2 : IVec SEdges 32)
    (hin : ∀ i, (x2 i).toNat < 100000) (b : Fin 16) :
    Cert.ReferenceIdeal.Read.val_main_v42 (F := Ideal) x0 x1 x2 (ix1 b)
      = (∑ e : Fin 1199919, term x1 x0 b (vtx x2 e 0) (vtx x2 e 1)) * invE := by
  rw [Read.val_main_v42_apply, Read.val_main_v41_apply, Read.val_main_cst_9_apply, Read.val_main_v40_apply,
    Read.val_main_cst_8_apply]
  simp only [idx40_eq, v39_at x0 x1 x2 hin]
  show Ideal.div (Ideal.ofBits .f32 0x00000000#32 + _) (Ideal.ofBits .f32 0x49927978#32) = _
  rw [Ideal.ofBits_zero_f32, zero_add, ofBits_numEdges, Ideal.div_coe (by norm_num)]

end Cert.Arap

end
-- ==== Proof.PreDecode.lean ====
/-
  What the precondition says of the three inputs: every coordinate of both vertex arrays is a real
  number, and every vertex word of the edge list lies in [0, 100000).
-/
import proofs.«415139_j7052336300349_3_alg».proof.Pre_finite_inputs
import proofs.«415139_j7052336300349_3_alg».proof.Proof.EdgeTerm
import Idealize.ShloMosaic.Lib.ReduceAll
import Idealize.ShloMosaic.Lib.StableHlo.Predicate

noncomputable section

namespace Cert.Arap

open Idealize.ShloMosaic Idealize.ShloMosaic.ValueIdx

/-- The result of a full reduction has a single index. -/
private instance scalarIdxSubsingleton : Subsingleton Cert.Pre_finite_inputs.S_.Idx := ⟨fun a b => funext fun d => d.elim0⟩

/-- The f32 pattern 0x7F800000 denotes +∞. -/
private theorem inf_pattern : Ideal.ofBits .f32 0x7F800000#32 = (⊤ : EReal) := by
  simp [Ideal.ofBits, Ideal.ieee]

/-- An extended real whose absolute value max x (−x) lies strictly below +∞ is a real number:
    +∞ has absolute value +∞, and so has −∞. -/
private theorem real_of_abs_lt_top (x : EReal) (h : max x (-x) < ⊤) : ∃ r : ℝ, x = (r : EReal) := by
  induction x using EReal.rec with
  | bot => simp at h
  | coe r => exact ⟨r, rfl⟩
  | top => simp at h

/-- The compare word |x| < +∞ being one says that x is a real number. -/
private theorem real_of_cmp (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_pattern] at h'
  have hlt : max x (-x) < ⊤ := by
    by_contra hn
    simp [Ideal.cmp, hn] at h'
  exact real_of_abs_lt_top x hlt

/-- A 32-bit word that reads, signed, as an integer in [0, 100000) reads the same unsigned. -/
private theorem toNat_lt_of_signed (w : BitVec 32) (h0 : IntOp.cmpi .sge w 0#32 = 1#1)
    (h1 : IntOp.cmpi .slt w 100000#32 = 1#1) : w.toNat < 100000 := by
  have hz : (0#32 : BitVec 32).toInt = 0 := by decide
  have hc : (100000#32 : BitVec 32).toInt = 100000 := by decide
  have g0 := IntOp.cmpi_sge.1 h0
  have g1 := IntOp.cmpi_slt.1 h1
  rw [hz] at g0
  rw [hc] at g1
  rw [BitVec.toInt_eq_toNat_cond] at g0 g1
  split at g0 <;> omega

/-- The printed precondition, all ones, gives finiteness of both float inputs and the range of the vertex words. -/
theorem pre_decode [Cert.Pre_finite_inputs.Facts] (a0 a1 : FVec Ideal SV .f32) (a2 : IVec SEdges 32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, (a2 i).toNat < 100000) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  have e1 := Host.reduce_andi_all _ _ _ _ _ h1
  have e2 := Host.reduce_andi_all _ _ _ _ _ h2
  have e3 := Host.reduce_andi_all _ _ _ _ _ h3
  have e4 := Host.reduce_andi_all _ _ _ _ _ h4
  exact ⟨fun i => real_of_cmp (a0 i) (e1 i), fun i => real_of_cmp (a1 i) (e2 i),
    fun i => toNat_lt_of_signed (a2 i) (e3 i) (e4 i)⟩

end Cert.Arap

end
-- ==== Proof.lean ====
/-
  The certificate: the Pallas kernel for the ARAP loss and its jnp reference compute the same 16 numbers.

  For every batch element b both programs return
      (1/1199919) · Σ over the 1199919 edges (j, k) of | ‖x[b,k] − x[b,j]‖² − ‖dx[b,k] − dx[b,j]‖² |.
  The reference gathers the endpoints, takes the absolute differences and divides their sum by the
  number of edges. The kernel pads the edge list with degenerate edges (0, 0) to 94 blocks of 12800,
  gathers on the host, and sums the blocks in two halves of 47, scaling each half's sum by the folded
  reciprocal 1/1199919 (named so in the certificate's table) before the host adds the two halves.
  On the extended reals the two agree because the padding edges contribute |0 − 0| = 0 for finite vertices
  (this is where finiteness of x and dx is used), every term is non-negative so the scaling distributes over
  the sum of the halves, division by 1199919 is multiplication by its reciprocal, and sums may be regrouped
  freely. Both programs index the vertex arrays by the edge list's words: for words in [0, 100000) (the
  precondition's second part) jnp.take's fill never applies and neither gather clamps.

  The frames of the two kernel programs are the generated ones; the reference's frame is its generated run.
-/
import proofs.«415139_j7052336300349_3_alg».proof.Defs
import proofs.«415139_j7052336300349_3_alg».proof.Proof.Gen.Kernel
import proofs.«415139_j7052336300349_3_alg».proof.Proof.Gen.Kernel.Skeleton
import proofs.«415139_j7052336300349_3_alg».proof.Proof.Gen.Kernel.Launch
import proofs.«415139_j7052336300349_3_alg».proof.Proof.Gen.Kernel.Points
import proofs.«415139_j7052336300349_3_alg».proof.Proof.Gen.Kernel.Frame
import proofs.«415139_j7052336300349_3_alg».proof.Proof.Gen.KernelIdeal
import proofs.«415139_j7052336300349_3_alg».proof.Proof.Gen.KernelIdeal.Skeleton
import proofs.«415139_j7052336300349_3_alg».proof.Proof.Gen.KernelIdeal.Launch
import proofs.«415139_j7052336300349_3_alg».proof.Proof.Gen.KernelIdeal.Points
import proofs.«415139_j7052336300349_3_alg».proof.Proof.Gen.KernelIdeal.Frame
import proofs.«415139_j7052336300349_3_alg».proof.Proof.Gen.ReferenceIdeal
import proofs.«415139_j7052336300349_3_alg».proof.Proof.Gen.ReferenceIdeal.Run
import proofs.«415139_j7052336300349_3_alg».proof.Proof.Gen.ReferenceIdeal.Read
import proofs.«415139_j7052336300349_3_alg».proof.Proof.Gen.Pre_finite_inputs
import proofs.«415139_j7052336300349_3_alg».proof.Proof.KernelValue
import proofs.«415139_j7052336300349_3_alg».proof.Proof.RefValue
import proofs.«415139_j7052336300349_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal 0x355FB619 is read as 1/1199919. -/
theorem preserves : Cert.preserves_Kernel_KernelIdeal :=
  IdealRules.named_const.statement Cert.KernelIdeal.κ "inv_e" .f32 0x355FB619#32 ((1 / 1199919 : ℝ) : EReal) rfl

/-- Both programs end with the scaled sum of the loss terms over the edges, batch element by batch element. -/
theorem algebraic : Cert.algebraic_KernelIdeal_ReferenceIdeal := by
  intro m ρ m' ρ' hpre hagree
  refine ⟨fun c => Cert.KernelIdeal.BodyValue.tailOf (Cert.KernelIdeal.BodyValue.arrOut m c),
    Cert.KernelIdeal.BodyValue.run m ρ, ?_⟩
  refine (θ_run Cert.ReferenceIdeal.defs _ _).mono (fun _ h c => ⟨(h c).1.trans ?_, (h c).2⟩)
    (Cert.ReferenceIdeal.Value.run (F := Ideal) m' ρ')
  obtain ⟨hdx, hx, hin⟩ := Cert.Arap.pre_decode _ _ _ (hpre c)
  rw [Cert.ReferenceIdeal.Read.val_main_v42_eq, (hagree c).1, (hagree c).2.1, (hagree c).2.2]
  funext i
  obtain ⟨b, rfl⟩ : ∃ b : Fin 16, i = ix1 b := ⟨i 0, eq_ix1 (n := 16) i⟩
  rw [Cert.Arap.ref_value _ _ _ hin b]
  exact (Cert.KernelIdeal.BodyValue.kernel_value m c hin hx hdx b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
